-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_bohr" .f32 0x3FF1E28C#32 ((2097152 / 1109765 : ℝ) : EReal)
  ∧ IdealRules.named_const.Statement Cert.KernelIdeal.κ "inv_bohr" .f32 0x3FF1E28C#32 ((2097152 / 1109765 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S6400000 : Shape := ⟨1, ![6400000]⟩
abbrev S6400000x3 : Shape := ⟨2, ![6400000, 3]⟩
abbrev S200000x3 : Shape := ⟨2, ![200000, 3]⟩
abbrev S_ : Shape := ⟨0, ![]⟩
abbrev S6400000x1 : Shape := ⟨2, ![6400000, 1]⟩

class Facts : Prop where
  bcast_S_S6400000 : S_.BroadcastsInDim S6400000 (![] : Fin 0 → Fin S6400000.rank)
  reducesTo_S6400000_S_d0 : S6400000.ReducesTo [0] S_
  h_S_ : 0 < S_.numel
  bcast_S_S6400000x3 : S_.BroadcastsInDim S6400000x3 (![] : Fin 0 → Fin S6400000x3.rank)
  reducesTo_S6400000x3_S_d0_1 : S6400000x3.ReducesTo [0, 1] S_
  bcast_S_S200000 : S_.BroadcastsInDim S200000 (![] : Fin 0 → Fin S200000.rank)
  reducesTo_S200000_S_d0 : S200000.ReducesTo [0] S_
  bcast_S_S200000x3 : S_.BroadcastsInDim S200000x3 (![] : Fin 0 → Fin S200000x3.rank)
  reducesTo_S200000x3_S_d0_1 : S200000x3.ReducesTo [0, 1] S_
  bcast_S6400000_S6400000x1_0 : S6400000.BroadcastsInDim S6400000x1 (![0] : Fin 1 → Fin S6400000x1.rank)
  gather_S200000_S6400000x1_S6400000_n_0_n_n_0_1_1_wf : GatherDims.WF S200000 S6400000x1 S6400000 [] [0] [] [0] [] 1 ![1]

variable [Facts]

def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def fn_part2 {F : FTy → Type} [FloatOps F] (main_v18 : IVec S_ 1) (main_v27 : FVec F S6400000 .f32) (main_v34 : FVec F S6400000 .f32) : IVec S_ 1 :=
  let main_v35 : FVec F S6400000 .f32 := mulf main_v27 main_v34
  let main_cst_11 : FVec F S_ .f32 := constant S_ .f32 0x00000000#32
  let main_v36 : FVec F S6400000 .f32 := broadcastInDim S6400000 ![] bcast_S_S6400000 main_cst_11
  let main_v37 : IVec S6400000 1 := cmpf .oge main_v35 main_v36
  let main_c_12 : IVec S_ 1 := constantI S_ 1 1#1
  let main_v38 : IVec S_ 1 := (fun x v => Host.reduce IntOp.andi x v reducesTo_S6400000_S_d0 h_S_) main_v37 main_c_12
  let main_v39 : IVec S_ 1 := andi main_v18 main_v38
  main_v39

def fn_part1 {F : FTy → Type} [FloatOps F] (main_arg1 : IVec S6400000 32) (main_arg2 : IVec S6400000 32) (main_arg5 : FVec F S200000 .f32) (main_v13 : IVec S_ 1) (main_v16 : IVec S200000x3 1) : IVec S_ 1 :=
  let main_c_5 : IVec S_ 1 := constantI S_ 1 1#1
  let main_v17 : IVec S_ 1 := (fun x v => Host.reduce IntOp.andi x v reducesTo_S200000x3_S_d0_1 h_S_) main_v16 main_c_5
  let main_v18 : IVec S_ 1 := andi main_v13 main_v17
  let main_cst_6 : FVec F S_ .f32 := constant S_ .f32 0x3E17BDBC#32
  let main_v19 : FVec F S200000 .f32 := broadcastInDim S200000 ![] bcast_S_S200000 main_cst_6
  let main_v20 : FVec F S200000 .f32 := Host.divf main_arg5 main_v19
  let main_c_7 : IVec S_ 32 := constantI S_ 32 0#32
  let main_v21 : IVec S6400000 32 := broadcastInDim S6400000 ![] bcast_S_S6400000 main_c_7
  let main_v22 : IVec S6400000 1 := cmpi .slt main_arg2 main_v21
  let main_c_8 : IVec S_ 32 := constantI S_ 32 200000#32
  let main_v23 : IVec S6400000 32 := broadcastInDim S6400000 ![] bcast_S_S6400000 main_c_8
  let main_v24 : IVec S6400000 32 := addi main_arg2 main_v23
  let main_v25 : IVec S6400000 32 := select main_v22 main_v24 main_arg2
  let main_v26 : IVec S6400000x1 32 := broadcastInDim S6400000x1 ![0] bcast_S6400000_S6400000x1_0 main_v25
  let main_v27 : FVec F S6400000 .f32 := (fun x i => Host.gather gather_S200000_S6400000x1_S6400000_n_0_n_n_0_1_1 x i) main_v20 main_v26
  let main_c_9 : IVec S_ 32 := constantI S_ 32 0#32
  let main_v28 : IVec S6400000 32 := broadcastInDim S6400000 ![] bcast_S_S6400000 main_c_9
  let main_v29 : IVec S6400000 1 := cmpi .slt main_arg1 main_v28
  let main_c_10 : IVec S_ 32 := constantI S_ 32 200000#32
  let main_v30 : IVec S6400000 32 := broadcastInDim S6400000 ![] bcast_S_S6400000 main_c_10
  let main_v31 : IVec S6400000 32 := addi main_arg1 main_v30
  let main_v32 : IVec S6400000 32 := select main_v29 main_v31 main_arg1
  let main_v33 : IVec S6400000x1 32 := broadcastInDim S6400000x1 ![0] bcast_S6400000_S6400000x1_0 main_v32
  let main_v34 : FVec F S6400000 .f32 := (fun x i => Host.gather gather_S200000_S6400000x1_S6400000_n_0_n_n_0_1_1 x i) main_v20 main_v33
  fn_part2 (F := F) main_v18 main_v27 main_v34

def fn {F : FTy → Type} [FloatOps F] (main_arg0 : IVec S200000 32) (main_arg1 : IVec S6400000 32) (main_arg2 : IVec S6400000 32) (main_arg3 : FVec F S6400000 .f32) (main_arg4 : FVec F S6400000x3 .f32) (main_arg5 : FVec F S200000 .f32) (main_arg6 : FVec F S200000x3 .f32) : IVec S_ 1 :=
  let main_v0 : FVec F S6400000 .f32 := Host.absf main_arg3
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  let main_v4 : FVec F S6400000x3 .f32 := Host.absf main_arg4
  let main_cst_0 : FVec F S_ .f32 := constant S_ .f32 0x7F800000#32
  let main_v5 : FVec F S6400000x3 .f32 := broadcastInDim S6400000x3 ![] bcast_S_S6400000x3 main_cst_0
  let main_v6 : IVec S6400000x3 1 := cmpf .olt main_v4 main_v5
  let main_c_1 : IVec S_ 1 := constantI S_ 1 1#1
  let main_v7 : IVec S_ 1 := (fun x v => Host.reduce IntOp.andi x v reducesTo_S6400000x3_S_d0_1 h_S_) main_v6 main_c_1
  let main_v8 : IVec S_ 1 := andi main_v3 main_v7
  let main_v9 : FVec F S200000 .f32 := Host.absf main_arg5
  let main_cst_2 : FVec F S_ .f32 := constant S_ .f32 0x7F800000#32
  let main_v10 : FVec F S200000 .f32 := broadcastInDim S200000 ![] bcast_S_S200000 main_cst_2
  let main_v11 : IVec S200000 1 := cmpf .olt main_v9 main_v10
  let main_c_3 : IVec S_ 1 := constantI S_ 1 1#1
  let main_v12 : IVec S_ 1 := (fun x v => Host.reduce IntOp.andi x v reducesTo_S200000_S_d0 h_S_) main_v11 main_c_3
  let main_v13 : IVec S_ 1 := andi main_v8 main_v12
  let main_v14 : FVec F S200000x3 .f32 := Host.absf main_arg6
  let main_cst_4 : FVec F S_ .f32 := constant S_ .f32 0x7F800000#32
  let main_v15 : FVec F S200000x3 .f32 := broadcastInDim S200000x3 ![] bcast_S_S200000x3 main_cst_4
  let main_v16 : IVec S200000x3 1 := cmpf .olt main_v14 main_v15
  fn_part1 (F := F) main_arg1 main_arg2 main_arg5 main_v13 main_v16
-- ==== Kernel.lean ====
abbrev S200000 : Shape := ⟨1, ![200000]⟩
abbrev S6400000 : Shape := ⟨1, ![6400000]⟩
abbrev S6400000x3 : Shape := ⟨2, ![6400000, 3]⟩
abbrev S200000x3 : Shape := ⟨2, ![200000, 3]⟩
abbrev S_ : Shape := ⟨0, ![]⟩
abbrev S6400000x1 : Shape := ⟨2, ![6400000, 1]⟩
abbrev S51200 : Shape := ⟨1, ![51200]⟩
abbrev S51200x3 : Shape := ⟨2, ![51200, 3]⟩
abbrev S51200x1 : Shape := ⟨2, ![51200, 1]⟩
abbrev S200000x1 : Shape := ⟨2, ![200000, 1]⟩

abbrev nBuf : Space → Nat
  | .hbm => 43
  | .vmem => 16
  | .smem => 0
  | _ => 0

abbrev bufTy : (tb : Table) → Fin (tcTables nBuf tb) → BufTy
  | .hbm, ⟨0, _⟩ => ⟨S200000, .i32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S6400000x3, .f32⟩
  | .hbm, ⟨5, _⟩ => ⟨S200000, .f32⟩
  | .hbm, ⟨6, _⟩ => ⟨S200000x3, .f32⟩
  | .hbm, ⟨7, _⟩ => ⟨S_, .f32⟩
  | .hbm, ⟨8, _⟩ => ⟨S200000, .f32⟩
  | .hbm, ⟨9, _⟩ => ⟨S200000, .f32⟩
  | .hbm, ⟨10, _⟩ => ⟨S_, .i32⟩
  | .hbm, ⟨11, _⟩ => ⟨S6400000, .i32⟩
  | .hbm, ⟨12, _⟩ => ⟨S6400000, .i1⟩
  | .hbm, ⟨13, _⟩ => ⟨S_, .i32⟩
  | .hbm, ⟨14, _⟩ => ⟨S6400000, .i32⟩
  | .hbm, ⟨15, _⟩ => ⟨S6400000, .i32⟩
  | .hbm, ⟨16, _⟩ => ⟨S6400000, .i32⟩
  | .hbm, ⟨17, _⟩ => ⟨S6400000x1, .i32⟩
  | .hbm, ⟨18, _⟩ => ⟨S6400000, .f32⟩
  | .hbm, ⟨19, _⟩ => ⟨S_, .i32⟩
  | .hbm, ⟨20, _⟩ => ⟨S6400000, .i32⟩
  | .hbm, ⟨21, _⟩ => ⟨S6400000, .i1⟩
  | .hbm, ⟨22, _⟩ => ⟨S_, .i32⟩
  | .hbm, ⟨23, _⟩ => ⟨S6400000, .i32⟩
  | .hbm, ⟨24, _⟩ => ⟨S6400000, .i32⟩
  | .hbm, ⟨25, _⟩ => ⟨S6400000, .i32⟩
  | .hbm, ⟨26, _⟩ => ⟨S6400000x1, .i32⟩
  | .hbm, ⟨27, _⟩ => ⟨S6400000, .f32⟩
  | .hbm, ⟨28, _⟩ => ⟨S_, .i32⟩
  | .hbm, ⟨29, _⟩ => ⟨S6400000, .i32⟩
  | .hbm, ⟨30, _⟩ => ⟨S6400000, .i1⟩
  | .hbm, ⟨31, _⟩ => ⟨S_, .i32⟩
  | .hbm, ⟨32, _⟩ => ⟨S6400000, .i32⟩
  | .hbm, ⟨33, _⟩ => ⟨S6400000, .i32⟩
  | .hbm, ⟨34, _⟩ => ⟨S6400000, .i32⟩
  | .hbm, ⟨35, _⟩ => ⟨S6400000x1, .i32⟩
  | .hbm, ⟨36, _⟩ => ⟨S6400000x3, .f32⟩
  | .hbm, ⟨37, _⟩ => ⟨S6400000x3, .f32⟩
  | .hbm, ⟨38, _⟩ => ⟨S_, .f32⟩
  | .hbm, ⟨39, _⟩ => ⟨S200000x3, .f32⟩
  | .hbm, ⟨40, _⟩ => ⟨S6400000x1, .i32⟩
  | .hbm, ⟨41, _⟩ => ⟨S200000x3, .f32⟩
  | .hbm, ⟨42, _⟩ => ⟨S200000x3, .f32⟩
  | .local _ .vmem, ⟨0, _⟩ => ⟨S51200, .f32⟩
  | .local _ .vmem, ⟨1, _⟩ => ⟨S51200, .f32⟩
  | .local _ .vmem, ⟨2, _⟩ => ⟨S51200x3, .f32⟩
  | .local _ .vmem, ⟨3, _⟩ => ⟨S51200x3, .f32⟩
  | .local _ .vmem, ⟨4, _⟩ => ⟨S51200, .f32⟩
  | .local _ .vmem, ⟨5, _⟩ => ⟨S51200, .f32⟩
  | .local _ .vmem, ⟨6, _⟩ => ⟨S51200, .f32⟩
  | .local _ .vmem, ⟨7, _⟩ => ⟨S51200, .f32⟩
  | .local _ .vmem, ⟨8, _⟩ => ⟨S51200x3, .f32⟩
  | .local _ .vmem, ⟨9, _⟩ => ⟨S51200x3, .f32⟩
  | .local _ .vmem, ⟨10, _⟩ => ⟨S51200x3, .f32⟩
  | .local _ .vmem, ⟨11, _⟩ => ⟨S51200x3, .f32⟩
  | .local _ .vmem, ⟨12, _⟩ => ⟨S200000x3, .f32⟩
  | .local _ .vmem, ⟨13, _⟩ => ⟨S200000, .f32⟩
  | .local _ .vmem, ⟨14, _⟩ => ⟨S200000x3, .f32⟩
  | .local _ .vmem, ⟨15, _⟩ => ⟨S200000x3, .f32⟩
  | _, _ => ⟨S200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S51200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S51200x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S51200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S51200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S51200x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S51200x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S200000x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S200000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S200000x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S200000x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  bcast_S_S200000 : S_.BroadcastsInDim S200000 (![] : Fin 0 → Fin S200000.rank)
  bcast_S_S6400000 : S_.BroadcastsInDim S6400000 (![] : Fin 0 → Fin S6400000.rank)
  bcast_S6400000_S6400000x1_0 : S6400000.BroadcastsInDim S6400000x1 (![0] : Fin 1 → Fin S6400000x1.rank)
  inb_S51200_S51200_0 : ∀ a, (![0] : Fin 1 → Nat) a + S51200.size a ≤ S51200.size a
  h_S51200 : 0 < S51200.numel
  inb_S51200x3_S51200x3_0_0 : ∀ a, (![0, 0] : Fin 2 → Nat) a + S51200x3.size a ≤ S51200x3.size a
  h_S51200x3 : 0 < S51200x3.numel
  shapeCasts_S51200_S51200 : S51200.ShapeCasts S51200
  shapeCasts_S51200x3_S51200x3 : S51200x3.ShapeCasts S51200x3
  reduces_S51200x3_S51200 : S51200x3.Reduces [1] S51200
  shapeCasts_S51200_S51200x1 : S51200.ShapeCasts S51200x1
  broadcasts_S51200x1_S51200x3 : S51200x1.Broadcasts S51200x3
  bcast_S_S200000x3 : S_.BroadcastsInDim S200000x3 (![] : Fin 0 → Fin S200000x3.rank)
  inb_S200000x3_S200000x3_0_0 : ∀ a, (![0, 0] : Fin 2 → Nat) a + S200000x3.size a ≤ S200000x3.size a
  h_S200000x3 : 0 < S200000x3.numel
  inb_S200000_S200000_0 : ∀ a, (![0] : Fin 1 → Nat) a + S200000.size a ≤ S200000.size a
  h_S200000 : 0 < S200000.numel
  shapeCasts_S200000_S200000 : S200000.ShapeCasts S200000
  shapeCasts_S200000x3_S200000x3 : S200000x3.ShapeCasts S200000x3
  shapeCasts_S200000_S200000x1 : S200000.ShapeCasts S200000x1
  broadcasts_S200000x1_S200000x3 : S200000x1.Broadcasts S200000x3
  gather_S200000_S6400000x1_S6400000_n_0_n_n_0_1_1_wf : GatherDims.WF S200000 S6400000x1 S6400000 [] [0] [] [0] [] 1 ![1]
  gather_S200000x3_S6400000x1_S6400000x3_1_0_n_n_0_1_13_wf : GatherDims.WF S200000x3 S6400000x1 S6400000x3 [1] [0] [] [0] [] 1 ![1, 3]
  scatter_S200000x3_S6400000x1_S6400000x3_1_0_0_1_wf : ScatterDims.WF S200000x3 S6400000x1 S6400000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S51200.size a ≤ S6400000.size a
  hwx0_0 : ∀ i : grid0.Coords, EltTy.bits .f32 = 32 ∨ (Rect.block (s := S6400000) S51200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S51200x3.size a ≤ S6400000x3.size a
  hwx0_1 : ∀ i : grid0.Coords, EltTy.bits .f32 = 32 ∨ (Rect.block (s := S6400000x3) S51200x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S51200.size a ≤ S6400000.size a
  hwx0_2 : ∀ i : grid0.Coords, EltTy.bits .f32 = 32 ∨ (Rect.block (s := S6400000) S51200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S51200.size a ≤ S6400000.size a
  hwx0_3 : ∀ i : grid0.Coords, EltTy.bits .f32 = 32 ∨ (Rect.block (s := S6400000) S51200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S51200x3.size a ≤ S6400000x3.size a
  hwx0_4 : ∀ i : grid0.Coords, EltTy.bits .f32 = 32 ∨ (Rect.block (s := S6400000x3) S51200x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S51200x3.size a ≤ S6400000x3.size a
  hwx0_5 : ∀ i : grid0.Coords, EltTy.bits .f32 = 32 ∨ (Rect.block (s := S6400000x3) S51200x3.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S200000x3.size a ≤ S200000x3.size a
  hwx1_0 : ∀ i : grid1.Coords, EltTy.bits .f32 = 32 ∨ (Rect.block (s := S200000x3) S200000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S200000.size a ≤ S200000.size a
  hwx1_1 : ∀ i : grid1.Coords, EltTy.bits .f32 = 32 ∨ (Rect.block (s := S200000) S200000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S200000x3.size a ≤ S200000x3.size a
  hwx1_2 : ∀ i : grid1.Coords, EltTy.bits .f32 = 32 ∨ (Rect.block (s := S200000x3) S200000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S200000x3.size a ≤ S200000x3.size a
  hwx1_3 : ∀ i : grid1.Coords, EltTy.bits .f32 = 32 ∨ (Rect.block (s := S200000x3) S200000x3.size (cc1_transform_3 i) (hinb1_3 i)).WholeWords (EltTy.packing .f32)

variable [Facts₀]

def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x3_S6400000x1_S6400000x3_1_0_n_n_0_1_13 : GatherDims S200000x3 S6400000x1 S6400000x3 where
  offsetDims := [1]
  collapsedSliceDims := [0]
  operandBatchingDims := []
  startIndicesBatchingDims := []
  startIndexMap := [0]
  indexVectorDim := 1
  sliceSizes := ![1, 3]
  wf := gather_S200000x3_S6400000x1_S6400000x3_1_0_n_n_0_1_13_wf
def scatter_S200000x3_S6400000x1_S6400000x3_1_0_0_1 : ScatterDims S200000x3 S6400000x1 S6400000x3 where
  updateWindowDims := [1]
  insertedWindowDims := [0]
  scatterDimsToOperandDims := [0]
  indexVectorDim := 1
  wf := scatter_S200000x3_S6400000x1_S6400000x3_1_0_0_1_wf

abbrev win0_0 : Pipeline.Window sig grid0 :=
  Pipeline.Window.ofSpec (Memref.whole main_arg3) S51200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S51200x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S51200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S51200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S51200x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23) S51200x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg6) S200000x3.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S200000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S200000x3.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S200000x3.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000 : Shape := ⟨1, ![200000]⟩
abbrev S6400000 : Shape := ⟨1, ![6400000]⟩
abbrev S6400000x3 : Shape := ⟨2, ![6400000, 3]⟩
abbrev S200000x3 : Shape := ⟨2, ![200000, 3]⟩
abbrev S_ : Shape := ⟨0, ![]⟩
abbrev S6400000x1 : Shape := ⟨2, ![6400000, 1]⟩
abbrev S200000x1 : Shape := ⟨2, ![200000, 1]⟩

abbrev nBuf : Space → Nat
  | .hbm => 100
  | .vmem => 0
  | .smem => 0
  | _ => 0

abbrev bufTy : (tb : Table) → Fin (tcTables nBuf tb) → BufTy
  | .hbm, ⟨0, _⟩ => ⟨S200000, .i32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S6400000x3, .f32⟩
  | .hbm, ⟨5, _⟩ => ⟨S200000, .f32⟩
  | .hbm, ⟨6, _⟩ => ⟨S200000x3, .f32⟩
  | .hbm, ⟨7, _⟩ => ⟨S_, .f32⟩
  | .hbm, ⟨8, _⟩ => ⟨S6400000, .f32⟩
  | .hbm, ⟨9, _⟩ => ⟨S6400000, .f32⟩
  | .hbm, ⟨10, _⟩ => ⟨S_, .f32⟩
  | .hbm, ⟨11, _⟩ => ⟨S6400000x3, .f32⟩
  | .hbm, ⟨12, _⟩ => ⟨S6400000x3, .f32⟩
  | .hbm, ⟨13, _⟩ => ⟨S_, .f32⟩
  | .hbm, ⟨14, _⟩ => ⟨S200000, .f32⟩
  | .hbm, ⟨15, _⟩ => ⟨S200000, .f32⟩
  | .hbm, ⟨16, _⟩ => ⟨S_, .i32⟩
  | .hbm, ⟨17, _⟩ => ⟨S6400000, .i32⟩
  | .hbm, ⟨18, _⟩ => ⟨S6400000, .i1⟩
  | .hbm, ⟨19, _⟩ => ⟨S_, .i32⟩
  | .hbm, ⟨20, _⟩ => ⟨S6400000, .i32⟩
  | .hbm, ⟨21, _⟩ => ⟨S6400000, .i32⟩
  | .hbm, ⟨22, _⟩ => ⟨S6400000, .i32⟩
  | .hbm, ⟨23, _⟩ => ⟨S6400000x1, .i32⟩
  | .hbm, ⟨24, _⟩ => ⟨S6400000, .f32⟩
  | .hbm, ⟨25, _⟩ => ⟨S_, .i32⟩
  | .hbm, ⟨26, _⟩ => ⟨S6400000, .i32⟩
  | .hbm, ⟨27, _⟩ => ⟨S6400000, .i1⟩
  | .hbm, ⟨28, _⟩ => ⟨S_, .i32⟩
  | .hbm, ⟨29, _⟩ => ⟨S6400000, .i32⟩
  | .hbm, ⟨30, _⟩ => ⟨S6400000, .i32⟩
  | .hbm, ⟨31, _⟩ => ⟨S6400000, .i32⟩
  | .hbm, ⟨32, _⟩ => ⟨S6400000x1, .i32⟩
  | .hbm, ⟨33, _⟩ => ⟨S6400000, .f32⟩
  | .hbm, ⟨34, _⟩ => ⟨S6400000, .f32⟩
  | .hbm, ⟨35, _⟩ => ⟨S_, .f32⟩
  | .hbm, ⟨36, _⟩ => ⟨S6400000, .f32⟩
  | .hbm, ⟨37, _⟩ => ⟨S6400000, .f32⟩
  | .hbm, ⟨38, _⟩ => ⟨S6400000, .f32⟩
  | .hbm, ⟨39, _⟩ => ⟨S6400000, .f32⟩
  | .hbm, ⟨40, _⟩ => ⟨S6400000, .f32⟩
  | .hbm, ⟨41, _⟩ => ⟨S_, .f32⟩
  | .hbm, ⟨42, _⟩ => ⟨S6400000, .f32⟩
  | .hbm, ⟨43, _⟩ => ⟨S6400000, .f32⟩
  | .hbm, ⟨44, _⟩ => ⟨S6400000, .f32⟩
  | .hbm, ⟨45, _⟩ => ⟨S6400000, .f32⟩
  | .hbm, ⟨46, _⟩ => ⟨S_, .f32⟩
  | .hbm, ⟨47, _⟩ => ⟨S6400000, .f32⟩
  | .hbm, ⟨48, _⟩ => ⟨S6400000, .f32⟩
  | .hbm, ⟨49, _⟩ => ⟨S_, .f32⟩
  | .hbm, ⟨50, _⟩ => ⟨S6400000, .f32⟩
  | .hbm, ⟨51, _⟩ => ⟨S6400000, .f32⟩
  | .hbm, ⟨52, _⟩ => ⟨S6400000, .f32⟩
  | .hbm, ⟨53, _⟩ => ⟨S_, .f32⟩
  | .hbm, ⟨54, _⟩ => ⟨S6400000, .f32⟩
  | .hbm, ⟨55, _⟩ => ⟨S6400000, .f32⟩
  | .hbm, ⟨56, _⟩ => ⟨S_, .i32⟩
  | .hbm, ⟨57, _⟩ => ⟨S6400000, .i32⟩
  | .hbm, ⟨58, _⟩ => ⟨S6400000, .i1⟩
  | .hbm, ⟨59, _⟩ => ⟨S_, .i32⟩
  | .hbm, ⟨60, _⟩ => ⟨S6400000, .i32⟩
  | .hbm, ⟨61, _⟩ => ⟨S6400000, .i32⟩
  | .hbm, ⟨62, _⟩ => ⟨S6400000, .i32⟩
  | .hbm, ⟨63, _⟩ => ⟨S6400000x1, .i32⟩
  | .hbm, ⟨64, _⟩ => ⟨S6400000x3, .f32⟩
  | .hbm, ⟨65, _⟩ => ⟨S6400000, .f32⟩
  | .hbm, ⟨66, _⟩ => ⟨S6400000, .f32⟩
  | .hbm, ⟨67, _⟩ => ⟨S_, .f32⟩
  | .hbm, ⟨68, _⟩ => ⟨S6400000, .f32⟩
  | .hbm, ⟨69, _⟩ => ⟨S6400000, .f32⟩
  | .hbm, ⟨70, _⟩ => ⟨S6400000, .f32⟩
  | .hbm, ⟨71, _⟩ => ⟨S6400000, .f32⟩
  | .hbm, ⟨72, _⟩ => ⟨S6400000, .f32⟩
  | .hbm, ⟨73, _⟩ => ⟨S_, .f32⟩
  | .hbm, ⟨74, _⟩ => ⟨S6400000, .f32⟩
  | .hbm, ⟨75, _⟩ => ⟨S6400000, .f32⟩
  | .hbm, ⟨76, _⟩ => ⟨S6400000x3, .f32⟩
  | .hbm, ⟨77, _⟩ => ⟨S_, .f32⟩
  | .hbm, ⟨78, _⟩ => ⟨S6400000, .f32⟩
  | .hbm, ⟨79, _⟩ => ⟨S6400000, .f32⟩
  | .hbm, ⟨80, _⟩ => ⟨S6400000x1, .f32⟩
  | .hbm, ⟨81, _⟩ => ⟨S6400000x3, .f32⟩
  | .hbm, ⟨82, _⟩ => ⟨S6400000x3, .f32⟩
  | .hbm, ⟨83, _⟩ => ⟨S_, .f32⟩
  | .hbm, ⟨84, _⟩ => ⟨S6400000, .f32⟩
  | .hbm, ⟨85, _⟩ => ⟨S6400000, .f32⟩
  | .hbm, ⟨86, _⟩ => ⟨S6400000, .f32⟩
  | .hbm, ⟨87, _⟩ => ⟨S6400000, .f32⟩
  | .hbm, ⟨88, _⟩ => ⟨S6400000x1, .f32⟩
  | .hbm, ⟨89, _⟩ => ⟨S6400000x3, .f32⟩
  | .hbm, ⟨90, _⟩ => ⟨S6400000x3, .f32⟩
  | .hbm, ⟨91, _⟩ => ⟨S6400000x3, .f32⟩
  | .hbm, ⟨92, _⟩ => ⟨S_, .f32⟩
  | .hbm, ⟨93, _⟩ => ⟨S200000x3, .f32⟩
  | .hbm, ⟨94, _⟩ => ⟨S6400000x1, .i32⟩
  | .hbm, ⟨95, _⟩ => ⟨S200000x3, .f32⟩
  | .hbm, ⟨96, _⟩ => ⟨S200000x1, .f32⟩
  | .hbm, ⟨97, _⟩ => ⟨S200000x3, .f32⟩
  | .hbm, ⟨98, _⟩ => ⟨S200000x3, .f32⟩
  | .hbm, ⟨99, _⟩ => ⟨S200000x3, .f32⟩
  | _, _ => ⟨S200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  bcast_S_S6400000x3 : S_.BroadcastsInDim S6400000x3 (![] : Fin 0 → Fin S6400000x3.rank)
  bcast_S_S200000 : S_.BroadcastsInDim S200000 (![] : Fin 0 → Fin S200000.rank)
  bcast_S6400000_S6400000x1_0 : S6400000.BroadcastsInDim S6400000x1 (![0] : Fin 1 → Fin S6400000x1.rank)
  reducesTo_S6400000x3_S6400000_d1 : S6400000x3.ReducesTo [1] S6400000
  h_S_ : 0 < S_.numel
  bcast_S6400000x1_S6400000x3_0_1 : S6400000x1.BroadcastsInDim S6400000x3 (![0, 1] : Fin 2 → Fin S6400000x3.rank)
  bcast_S_S200000x3 : S_.BroadcastsInDim S200000x3 (![] : Fin 0 → Fin S200000x3.rank)
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  gather_S200000_S6400000x1_S6400000_n_0_n_n_0_1_1_wf : GatherDims.WF S200000 S6400000x1 S6400000 [] [0] [] [0] [] 1 ![1]
  gather_S200000x3_S6400000x1_S6400000x3_1_0_n_n_0_1_13_wf : GatherDims.WF S200000x3 S6400000x1 S6400000x3 [1] [0] [] [0] [] 1 ![1, 3]
  scatter_S200000x3_S6400000x1_S6400000x3_1_0_0_1_wf : ScatterDims.WF S200000x3 S6400000x1 S6400000x3 [1] [0] [0] 1

variable [Facts₀]

def gather_S200000_S6400000x1_S6400000_n_0_n_n_0_1_1 : GatherDims S200000 S6400000x1 S6400000 where
  offsetDims := []
  collapsedSliceDims := [0]
  operandBatchingDims := []
  startIndicesBatchingDims := []
  startIndexMap := [0]
  indexVectorDim := 1
  sliceSizes := ![1]
  wf := gather_S200000_S6400000x1_S6400000_n_0_n_n_0_1_1_wf
def gather_S200000x3_S6400000x1_S6400000x3_1_0_n_n_0_1_13 : GatherDims S200000x3 S6400000x1 S6400000x3 where
  offsetDims := [1]
  collapsedSliceDims := [0]
  operandBatchingDims := []
  startIndicesBatchingDims := []
  startIndexMap := [0]
  indexVectorDim := 1
  sliceSizes := ![1, 3]
  wf := gather_S200000x3_S6400000x1_S6400000x3_1_0_n_n_0_1_13_wf
def scatter_S200000x3_S6400000x1_S6400000x3_1_0_0_1 : ScatterDims S200000x3 S6400000x1 S6400000x3 where
  updateWindowDims := [1]
  insertedWindowDims := [0]
  scatterDimsToOperandDims := [0]
  indexVectorDim := 1
  wf := scatter_S200000x3_S6400000x1_S6400000x3_1_0_0_1_wf

class Facts : Prop extends Facts₀ where

variable [Facts]
-- ==== Proof.PreDecode.lean ====
/-
  What the precondition says about the product of polarisabilities.

  The precondition is a conjunction of five "all" tests; the last one says that for every edge the product of the two
  rescaled polarisabilities gathered at the edge's end points is at least zero. Read at one edge, that test is the
  comparison 0 ≤ pol[dst] · pol[src]; the two gathered factors are the same functions of the index and
  polarisability arrays as the reference's own gathered factors, which is how the fact is stated here.
-/
import proofs.«425052_j68865505624311_1_alg».proof.Pre_finite_inputs
import proofs.«425052_j68865505624311_1_alg».proof.Proof.Gen.Pre_finite_inputs
import proofs.«425052_j68865505624311_1_alg».proof.Proof.Gen.ReferenceIdeal.Read
import Idealize.ShloMosaic.Lib.ReduceAll
import Idealize.ShloMosaic.Lib.ValueIdx
import Idealize.ShloMosaic.Lib.Affine
import Idealize.ShloMosaic.Lib.StableHlo.Predicate
import Idealize.ShloMosaic.PureOps.Ideal.Laws

noncomputable section

namespace Cert.Dipole

open Idealize.ShloMosaic Idealize.ShloMosaic.ValueIdx

/-- A rank-zero shape has one index. -/
instance subsingleton_scalar_idx : Subsingleton Cert.Pre_finite_inputs.S_.Idx := ⟨fun a b => funext fun d => d.elim0⟩

/-- Under the precondition, at every edge the product of the two gathered polarisabilities is not negative. -/
theorem alpha_nonneg (a0 : IVec Cert.Pre_finite_inputs.S200000 32) (a1 a2 : IVec Cert.Pre_finite_inputs.S6400000 32)
    (a3 : FVec Ideal Cert.Pre_finite_inputs.S6400000 .f32) (a4 : FVec Ideal Cert.Pre_finite_inputs.S6400000x3 .f32)
    (a5 : FVec Ideal Cert.Pre_finite_inputs.S200000 .f32) (a6 : FVec Ideal Cert.Pre_finite_inputs.S200000x3 .f32)
    (h : Cert.Pre_finite_inputs.fn (F := Ideal) a0 a1 a2 a3 a4 a5 a6 = fun _ => 1#1) (i : Cert.ReferenceIdeal.S6400000.Idx) :
    0 ≤ Cert.ReferenceIdeal.Read.val_main_v12 (F := Ideal) a2 a5 i * Cert.ReferenceIdeal.Read.val_main_v19 (F := Ideal) a1 a5 i := by
  have h0 := congrFun h ix0
  dsimp only [Cert.Pre_finite_inputs.fn, Cert.Pre_finite_inputs.fn_part1, Cert.Pre_finite_inputs.fn_part2] at h0
  have h1 := (IntOp.andi_eq_one.1 h0).2
  have h2 := Host.reduce_andi_all _ _ _ _ _ h1 i
  have h3 : Ideal.cmp .oge
      (Cert.ReferenceIdeal.Read.val_main_v12 (F := Ideal) a2 a5 i * Cert.ReferenceIdeal.Read.val_main_v19 (F := Ideal) a1 a5 i)
      (Ideal.ofBits .f32 0x00000000#32) = 1#1 := h2
  rw [Ideal.ofBits_zero_f32] at h3
  unfold Ideal.cmp at h3
  exact of_decide_eq_true ((StableHlo.Predicate.ofBool_eq_one_iff _).1 h3)

end Cert.Dipole

end
-- ==== Proof.EdgeScalar.lean ====
/-
  Scalar facts on the extended reals behind the per-edge Thole term.

  The kernel scales a distance by the reciprocal of the Bohr radius, the reference divides by the Bohr radius: with
  the kernel's constant read as the exact reciprocal of the reference's, the two agree on every extended real.
  The kernel forms the sixth root of the product of two polarisabilities as exp (log a · s), the reference as a ^ s,
  with s the same positive real on both sides: for 0 ≤ a these agree (a = 0 gives 0 on both sides, a = +∞ gives +∞).
  The kernel forms r⁻⁵ as (1 / r³) / r², the reference as 1 / r⁵: these agree at every extended real r, the poles
  r = 0 (both +∞) and r = ±∞ (both 0) included.
-/
import Idealize.ShloMosaic.PureOps.Ideal
import Idealize.ShloMosaic.PureOps.Ideal.Laws

noncomputable section

namespace Cert.Dipole

open Idealize.ShloMosaic

/-- The reference's Bohr radius, the word 0x3F077828, is the rational 1109765 / 2²¹. -/
theorem bohr_word : Ideal.ofBits .f32 0x3F077828#32 = ((1109765 / 2097152 : ℝ) : EReal) := by
  simp [Ideal.ofBits, Ideal.ieee, -EReal.coe_mul]; norm_num

/-- The exponent both programs share, the word 0x3E2AAAAB (one sixth rounded), is the rational 11184811 / 2²⁶. -/
theorem sixth_word : Ideal.ofBits .f32 0x3E2AAAAB#32 = ((11184811 / 67108864 : ℝ) : EReal) := by
  simp [Ideal.ofBits, Ideal.ieee, -EReal.coe_mul]; norm_num

/-- The word 0x3F800000 is 1. -/
theorem one_word : Ideal.ofBits .f32 0x3F800000#32 = 1 := by
  simp [Ideal.ofBits, Ideal.ieee, -EReal.coe_mul]; norm_num

/-- Multiplying by the exact reciprocal of the Bohr radius is dividing by the Bohr radius, at the infinities too. -/
theorem mul_inv_bohr (x : EReal) :
    x * ((2097152 / 1109765 : ℝ) : EReal) = Ideal.div x (Ideal.ofBits .f32 0x3F077828#32) := by
  rw [bohr_word, Ideal.div_coe (by norm_num)]
  congr 2; norm_num

/-- For 0 ≤ a the kernel's exp (log a · s) is the reference's a ^ s, s the shared positive exponent. -/
theorem exp_log_mul_sixth (a : EReal) (ha : 0 ≤ a) :
    Ideal.exp (Ideal.log a * Ideal.ofBits .f32 0x3E2AAAAB#32) = Ideal.pow a (Ideal.ofBits .f32 0x3E2AAAAB#32) := by
  rw [sixth_word]
  have hs : (0 : ℝ) < 11184811 / 67108864 := by norm_num
  induction a using EReal.rec with
  | bot => exact absurd ha (not_le.mpr EReal.bot_lt_zero)
  | top =>
    rw [Ideal.log_top, EReal.top_mul_coe_of_pos hs, Ideal.exp_top, Ideal.pow_top, if_pos (by exact_mod_cast hs)]
  | coe a =>
    have ha' : 0 ≤ a := by exact_mod_cast ha
    rw [Ideal.log_coe, Ideal.pow_coe_coe]
    rcases ha'.eq_or_lt with h0 | hpos
    · subst h0
      rw [if_pos le_rfl, EReal.bot_mul_coe_of_pos hs, Ideal.exp_bot]
      exact_mod_cast (Real.zero_rpow hs.ne').symm
    · rw [if_neg (not_le.mpr hpos), ← EReal.coe_mul, Ideal.exp_coe]
      exact_mod_cast (Real.rpow_def_of_pos hpos _).symm

/-- (1 / r³) / r² = 1 / r⁵ at every extended real, in the two programs' groupings of the products. -/
theorem inv_cube_div_sq (r : EReal) :
    Ideal.div (Ideal.div 1 (r * r * r)) (r * r) = Ideal.div 1 (r * (r * r * (r * r))) := by
  induction r using EReal.rec with
  | bot => simp [Ideal.div, EReal.bot_mul_bot, EReal.top_mul_bot, EReal.bot_mul_top, EReal.top_mul_top]
  | top => simp [Ideal.div, EReal.top_mul_top]
  | coe r =>
    by_cases h : r = 0
    · subst h; simp [Ideal.div]
    · have h2 : r * r ≠ 0 := mul_ne_zero h h
      have h3 : r * r * r ≠ 0 := mul_ne_zero h2 h
      have h5 : r * (r * r * (r * r)) ≠ 0 := mul_ne_zero h (mul_ne_zero h2 h2)
      rw [show (r : EReal) * r * r = ((r * r * r : ℝ) : EReal) by push_cast; rfl,
        show (r : EReal) * r = ((r * r : ℝ) : EReal) by push_cast; rfl,
        show (r : EReal) * (((r * r : ℝ) : EReal) * ((r * r : ℝ) : EReal)) = ((r * (r * r * (r * r)) : ℝ) : EReal) by
          push_cast; rfl,
        Ideal.div_coe h3, Ideal.div_coe h2, Ideal.div_coe h5, one_mul, one_mul, ← EReal.coe_mul]
      congr 1; field_simp

end Cert.Dipole

end
-- ==== Proof.EdgeTerm.lean ====
/-
  The per-edge Thole-damped dipole term as a function of one edge's scalars, in the reference's form and in the
  kernel's form, and their equality.

  For an edge with distance d, end-point polarisabilities pd and ps, displacement v and end-point dipole mu
  (three components each), with r = d / a₀ the distance in Bohr radii and w = v / a₀:
      u = r / (pd · ps)^s,   t = A · u³,   e = exp (-t),   λ₃ = 1 - e,   λ₅ = 1 - (1 + t) · e,
      term j = (λ₃ / r³) · mu j - (3 · λ₅ / r⁵ · Σₖ w k · mu k) · w j.
  The reference divides by a₀, takes the power directly, groups A · ((u · u) · u), negates, and divides 1 by
  r · ((r · r) · (r · r)); the kernel multiplies by 1 / a₀, takes exp (log · s), groups ((A · u) · u) · u, subtracts
  from zero, and divides 1 / ((r · r) · r) by r · r. For 0 ≤ pd · ps the two are one extended real.
-/
import proofs.«425052_j68865505624311_1_alg».proof.Proof.EdgeScalar
import Idealize.ShloMosaic.Lib.ValueIdx

noncomputable section

namespace Cert.Dipole

open Idealize.ShloMosaic Idealize.ShloMosaic.ValueIdx

/-- The Bohr radius a₀ as the reference spells it. -/
abbrev bohr : EReal := Ideal.ofBits .f32 0x3F077828#32
/-- The exponent s, one sixth rounded, as both programs spell it. -/
abbrev sixth : EReal := Ideal.ofBits .f32 0x3E2AAAAB#32
/-- The damping parameter A as both programs spell it. -/
abbrev aMut : EReal := Ideal.ofBits .f32 0x3EC7AE14#32
/-- The factor 3 as both programs spell it. -/
abbrev three : EReal := Ideal.ofBits .f32 0x40400000#32
/-- The kernel's 1 / a₀, read as the exact reciprocal. -/
abbrev invBohr : EReal := ((2097152 / 1109765 : ℝ) : EReal)

/-- The term in the reference's form. -/
def edgeTerm (d pd ps : EReal) (v mu : Fin 3 → EReal) (j : Fin 3) : EReal :=
  let r := Ideal.div d bohr
  let u := Ideal.div r (Ideal.pow (pd * ps) sixth)
  let t := aMut * (u * u * u)
  let e := Ideal.exp (-t)
  (1 - e) * Ideal.div 1 (r * r * r) * mu j
    - three * (1 - (1 + t) * e) * Ideal.div 1 (r * (r * r * (r * r))) * (∑ k : Fin 3, Ideal.div (v k) bohr * mu k)
      * Ideal.div (v j) bohr

/-- The term in the kernel's form. -/
def edgeTermKernel (d pd ps : EReal) (v mu : Fin 3 → EReal) (j : Fin 3) : EReal :=
  let r := d * invBohr
  let u := Ideal.div r (Ideal.exp (Ideal.log (pd * ps) * sixth))
  let t := aMut * u * u * u
  let e := Ideal.exp (0 - t)
  (1 - e) * Ideal.div 1 (r * r * r) * mu j
    - three * (1 - (1 + t) * e) * Ideal.div (Ideal.div 1 (r * r * r)) (r * r) * (∑ k : Fin 3, v k * invBohr * mu k)
      * (v j * invBohr)

/-- Where the product of the two polarisabilities is not negative, the kernel's form is the reference's. -/
theorem edgeTermKernel_eq (d pd ps : EReal) (v mu : Fin 3 → EReal) (j : Fin 3) (h : 0 ≤ pd * ps) :
    edgeTermKernel d pd ps v mu j = edgeTerm d pd ps v mu j := by
  unfold edgeTermKernel edgeTerm
  dsimp only
  rw [inv_cube_div_sq]
  simp only [mul_inv_bohr, exp_log_mul_sixth _ h, zero_sub, mul_assoc]

/-- The terms of all 6400000 edges as one 6400000 × 3 array: entry (e, q) is the term of edge e's distance, the two
    polarisabilities gathered at its end points, its displacement row and the dipole row gathered at its end point. -/
def edgeField (d pd ps : (⟨1, ![6400000]⟩ : Shape).Idx → EReal) (vec mud : (⟨2, ![6400000, 3]⟩ : Shape).Idx → EReal) :
    (⟨2, ![6400000, 3]⟩ : Shape).Idx → EReal := fun i =>
  edgeTerm (d (ix1 (⟨(i 0).val, (i 0).isLt⟩ : Fin 6400000))) (pd (ix1 (⟨(i 0).val, (i 0).isLt⟩ : Fin 6400000)))
    (ps (ix1 (⟨(i 0).val, (i 0).isLt⟩ : Fin 6400000)))
    (fun k => vec (ix2 (⟨(i 0).val, (i 0).isLt⟩ : Fin 6400000) k))
    (fun k => mud (ix2 (⟨(i 0).val, (i 0).isLt⟩ : Fin 6400000) k)) (⟨(i 1).val, (i 1).isLt⟩ : Fin 3)

theorem edgeField_apply (d pd ps : (⟨1, ![6400000]⟩ : Shape).Idx → EReal) (vec mud : (⟨2, ![6400000, 3]⟩ : Shape).Idx → EReal)
    (e : Fin 6400000) (q : Fin 3) :
    edgeField d pd ps vec mud (ix2 e q)
      = edgeTerm (d (ix1 e)) (pd (ix1 e)) (ps (ix1 e)) (fun k => vec (ix2 e k)) (fun k => mud (ix2 e k)) q := rfl

/-- Dipole over polarisability plus field, node by node, as one 200000 × 3 array. -/
def nodeField (mu : (⟨2, ![200000, 3]⟩ : Shape).Idx → EReal) (pol : (⟨1, ![200000]⟩ : Shape).Idx → EReal)
    (field : (⟨2, ![200000, 3]⟩ : Shape).Idx → EReal) : (⟨2, ![200000, 3]⟩ : Shape).Idx → EReal := fun i =>
  Ideal.div (mu i) (pol (ix1 (⟨(i 0).val, (i 0).isLt⟩ : Fin 200000))) + field i

theorem nodeField_apply (mu : (⟨2, ![200000, 3]⟩ : Shape).Idx → EReal) (pol : (⟨1, ![200000]⟩ : Shape).Idx → EReal)
    (field : (⟨2, ![200000, 3]⟩ : Shape).Idx → EReal) (n : Fin 200000) (q : Fin 3) :
    nodeField mu pol field (ix2 n q) = Ideal.div (mu (ix2 n q)) (pol (ix1 n)) + field (ix2 n q) := rfl

end Cert.Dipole

end
-- ==== Proof.RefField.lean ====
/-
  The reference's contribution array, read at an index.

  The reference computes the 6400000 × 3 array of per-edge terms on the host, one whole-array operation at a time.
  Read at edge e and component q, each elementwise operation reads its operands at e (or (e, q)), the two keepdims
  broadcasts read row e, and the sum over the component axis is the initial value 0 plus the three products. What
  is left is the per-edge term of edge e's distance, its two gathered polarisabilities, its displacement row and its
  gathered dipole row.
-/
import proofs.«425052_j68865505624311_1_alg».proof.Proof.Gen.ReferenceIdeal.Read
import proofs.«425052_j68865505624311_1_alg».proof.Proof.EdgeTerm
import Idealize.ShloMosaic.Lib.ValueIdx
import Idealize.ShloMosaic.PureOps.Ideal.Laws

noncomputable section

namespace Cert.Dipole

open Idealize.ShloMosaic Idealize.ShloMosaic.ValueIdx Cert.ReferenceIdeal

/-- The keepdims broadcasts and the component sum read row e. -/
theorem idx57 (e : Fin 6400000) (q : Fin 3) : Read.idx_main_v57 (ix2 e q) = ix2 e (0 : Fin 1) :=
  funext fun a => by match a with | ⟨0, _⟩ => rfl | ⟨1, _⟩ => rfl
theorem idx56 (e : Fin 6400000) (u : Fin 1) : Read.idx_main_v56 (ix2 e u) = ix1 e :=
  funext fun a => by match a with | ⟨0, _⟩ => rfl
theorem idx64 (e : Fin 6400000) (q : Fin 3) : Read.idx_main_v64 (ix2 e q) = ix2 e (0 : Fin 1) :=
  funext fun a => by match a with | ⟨0, _⟩ => rfl | ⟨1, _⟩ => rfl
theorem idx63 (e : Fin 6400000) (u : Fin 1) : Read.idx_main_v63 (ix2 e u) = ix1 e :=
  funext fun a => by match a with | ⟨0, _⟩ => rfl
theorem idx54 (e : Fin 6400000) (k : Fin 3) : Read.idx_main_v54 (ix1 e) k = ix2 e k :=
  funext fun a => by match a with | ⟨0, _⟩ => rfl | ⟨1, _⟩ => rfl

/-- The reference's contribution at (e, q) is the per-edge term of edge e. -/
theorem ref_contrib_apply (x1 x2 : IVec S6400000 32) (x3 : FVec Ideal S6400000 .f32) (x4 : FVec Ideal S6400000x3 .f32)
    (x5 : FVec Ideal S200000 .f32) (x6 : FVec Ideal S200000x3 .f32) (e : Fin 6400000) (q : Fin 3) :
    Read.val_main_v66 (F := Ideal) x1 x2 x3 x4 x5 x6 (ix2 e q)
      = edgeTerm (x3 (ix1 e)) (Read.val_main_v12 (F := Ideal) x2 x5 (ix1 e)) (Read.val_main_v19 (F := Ideal) x1 x5 (ix1 e))
          (fun k => x4 (ix2 e k)) (fun k => Read.val_main_v43 (F := Ideal) x2 x6 (ix2 e k)) q := by
  simp only [Read.val_main_v66_apply, Read.val_main_v58_apply, Read.val_main_v57_apply, Read.val_main_v56_apply, Read.val_main_v55_apply, Read.val_main_v31_apply, Read.val_main_v30_apply, Read.val_main_cst_7_apply, Read.val_main_v29_apply, Read.val_main_v28_apply, Read.val_main_v27_apply, Read.val_main_v26_apply, Read.val_main_cst_6_apply, Read.val_main_v25_apply, Read.val_main_v24_apply, Read.val_main_v23_apply, Read.val_main_v1_apply, Read.val_main_v0_apply, Read.val_main_cst_apply, Read.val_main_v22_apply, Read.val_main_v20_apply, Read.val_main_v21_apply, Read.val_main_cst_5_apply, Read.val_main_v47_apply, Read.val_main_v46_apply, Read.val_main_cst_12_apply, Read.val_main_v45_apply, Read.val_main_v44_apply, Read.val_main_v65_apply, Read.val_main_v64_apply, Read.val_main_v63_apply, Read.val_main_v62_apply, Read.val_main_v61_apply, Read.val_main_v60_apply, Read.val_main_v59_apply, Read.val_main_cst_15_apply, Read.val_main_v36_apply, Read.val_main_v35_apply, Read.val_main_cst_9_apply, Read.val_main_v34_apply, Read.val_main_v33_apply, Read.val_main_v32_apply, Read.val_main_cst_8_apply, Read.val_main_v52_apply, Read.val_main_v51_apply, Read.val_main_cst_13_apply, Read.val_main_v50_apply, Read.val_main_v49_apply, Read.val_main_v48_apply, Read.val_main_v54_apply, Read.val_main_cst_14_apply, Read.val_main_v53_apply, Read.val_main_v3_apply, Read.val_main_v2_apply, Read.val_main_cst_0_apply, idx57, idx56, idx64, idx63, idx54]
  simp only [Ideal.subf_def, Ideal.mulf_def, Ideal.hostDivf_def, Ideal.hostPowf_def, Ideal.hostUnary_exp_def,
    Ideal.hostNegf_def, Ideal.negf_def, Ideal.addf_def, Ideal.ofBits_def, one_word, Ideal.ofBits_zero_f32, zero_add]
  rfl

end Cert.Dipole

end
-- ==== Proof.RefResult.lean ====
/-
  The reference's result array as the shared closed form.

  The reference ends with dipole / polarisability + field, the field being the scatter-add by source node, into
  zeros, of its contribution array. At node n and component q the quotient reads the dipole at (n, q) and the rescaled
  polarisability at n (two keepdims broadcasts); the contribution array is the whole-array per-edge term of the
  launch distance and displacement and the three gathers. This form — `resultOf` — is the one the kernel program's
  result is shown equal to.
-/
import proofs.«425052_j68865505624311_1_alg».proof.Proof.RefField

noncomputable section

namespace Cert.Dipole

open Idealize.ShloMosaic Idealize.ShloMosaic.ValueIdx Cert.ReferenceIdeal

/-- The contribution array: the whole-array per-edge term of the launch arrays and the reference's three gathers. -/
def contribOf (x1 x2 : IVec S6400000 32) (x3 : FVec Ideal S6400000 .f32) (x4 : FVec Ideal S6400000x3 .f32)
    (x5 : FVec Ideal S200000 .f32) (x6 : FVec Ideal S200000x3 .f32) : FVec Ideal S6400000x3 .f32 :=
  edgeField x3 (Read.val_main_v12 (F := Ideal) x2 x5) (Read.val_main_v19 (F := Ideal) x1 x5) x4 (Read.val_main_v43 (F := Ideal) x2 x6)

/-- The result: dipole over rescaled polarisability, plus the contributions summed by source node. -/
def resultOf (x1 x2 : IVec S6400000 32) (x3 : FVec Ideal S6400000 .f32) (x4 : FVec Ideal S6400000x3 .f32)
    (x5 : FVec Ideal S200000 .f32) (x6 : FVec Ideal S200000x3 .f32) : FVec Ideal S200000x3 .f32 :=
  nodeField x6 (Read.val_main_v5 (F := Ideal) x5)
    (Host.scatterAdd scatter_S200000x3_S6400000x1_S6400000x3_1_0_0_1 (Read.val_main_v67 (F := Ideal)) (Read.val_main_v68 (F := Ideal) x1)
      (contribOf x1 x2 x3 x4 x5 x6))

theorem idx71 (n : Fin 200000) (q : Fin 3) : Read.idx_main_v71 (ix2 n q) = ix2 n (0 : Fin 1) :=
  funext fun a => by match a with | ⟨0, _⟩ => rfl | ⟨1, _⟩ => rfl
theorem idx70 (n : Fin 200000) (u : Fin 1) : Read.idx_main_v70 (ix2 n u) = ix1 n :=
  funext fun a => by match a with | ⟨0, _⟩ => rfl

/-- The reference's contribution stage is the contribution array. -/
theorem ref_contrib (x1 x2 : IVec S6400000 32) (x3 : FVec Ideal S6400000 .f32) (x4 : FVec Ideal S6400000x3 .f32)
    (x5 : FVec Ideal S200000 .f32) (x6 : FVec Ideal S200000x3 .f32) :
    Read.val_main_v66 (F := Ideal) x1 x2 x3 x4 x5 x6 = contribOf x1 x2 x3 x4 x5 x6 := by
  funext j
  obtain ⟨e, q, rfl⟩ : ∃ (e : Fin 6400000) (q : Fin 3), j = ix2 e q := ⟨j 0, j 1, eq_ix2 j⟩
  rw [ref_contrib_apply]
  rfl

/-- The reference's last stage is the result. -/
theorem ref_result (x1 x2 : IVec S6400000 32) (x3 : FVec Ideal S6400000 .f32) (x4 : FVec Ideal S6400000x3 .f32)
    (x5 : FVec Ideal S200000 .f32) (x6 : FVec Ideal S200000x3 .f32) :
    Read.val_main_v73 (F := Ideal) x1 x2 x3 x4 x5 x6 = resultOf x1 x2 x3 x4 x5 x6 := by
  funext i
  obtain ⟨n, q, rfl⟩ : ∃ (n : Fin 200000) (q : Fin 3), i = ix2 n q := ⟨i 0, i 1, eq_ix2 i⟩
  rw [Read.val_main_v73_apply, Read.val_main_v72_apply, Read.val_main_v71_apply, Read.val_main_v70_apply, idx71, idx70]
  unfold resultOf
  rw [nodeField_apply]
  unfold Read.val_main_v69
  rw [ref_contrib]
  rfl

end Cert.Dipole

end
-- ==== Proof.Layout.lean ====
/-
  Two layout operations of a column read at an index: a vector of length a cast to an a × 1 column, and an a × 1
  column broadcast along its unit axis to a × b. Each reads the operand at the row.
-/
import Idealize.ShloMosaic.Lib.ValueIdx
import Idealize.ShloMosaic.Lib.Pipeline.Value

namespace Cert.Dipole

open Idealize.ShloMosaic Idealize.ShloMosaic.ValueIdx

variable {α : Type}

/-- A length-a vector cast to an a × 1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a × 1 column broadcast to a × b reads, at (p, q), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Dipole
-- ==== Proof.KernelBlock.lean ====
/-
  What the two kernel bodies leave in their output blocks, read at an index.

  The edge kernel's block holds 51200 edges. At row p and component q its store is the per-edge term in the kernel's
  form (EdgeTerm.lean) of row p of the five input blocks: distance, displacement, the two gathered polarisabilities and
  the gathered dipole. Each intermediate of the body is read at row p from the ones before it; the three-component dot
  product is the lane sum over the second axis, kept as a column and broadcast back over the components.
  The final kernel's block is the whole node array: at node n and component q it is mu / pol + field.
-/
import proofs.«425052_j68865505624311_1_alg».proof.Proof.Gen.KernelIdeal.Frame
import proofs.«425052_j68865505624311_1_alg».proof.Proof.EdgeTerm
import proofs.«425052_j68865505624311_1_alg».proof.Proof.Layout
import Idealize.ShloMosaic.Lib.ValueIdx
import Idealize.ShloMosaic.Lib.Pipeline.Value
import Idealize.ShloMosaic.PureOps.Ideal.Laws

noncomputable section

namespace Cert.Dipole

open Idealize.ShloMosaic Idealize.ShloMosaic.ValueIdx Cert.KernelIdeal Cert.KernelIdeal.Gen

theorem hz1 : (![0] : Fin 1 → Nat) = fun _ => 0 := funext fun a => by fin_cases a <;> rfl
theorem hz2 : (![0, 0] : Fin 2 → Nat) = fun _ => 0 := funext fun a => by fin_cases a <;> rfl

/-- The kernel's named reciprocal of the Bohr radius denotes the exact reciprocal. -/
theorem named_inv_bohr :
    Named.named (F := Ideal) Cert.KernelIdeal.κ "inv_bohr" (φ := .f32) 0x3FF1E28C#32 = invBohr :=
  IdealRules.named_const.ideal_named_scalar _ _ _ _ rfl

/-- A row's sum of three: the lane reduction over the second axis at row p. -/
theorem rowSum_apply (src : FVec Ideal S51200x3 .f32) (p : Fin 51200) :
    multiReduction .add [1] S51200 src 0x00000000#32 reduces_S51200x3_S51200 (.inl rfl) rfl (ix1 p)
      = ∑ k : Fin 3, src (ix2 p k) := by
  refine (Ideal.multiReduction_add_single src 0x00000000#32 reduces_S51200x3_S51200 (.inl rfl) rfl (ix1 p)).trans ?_
  refine Finset.sum_congr rfl fun k _ => congrArg src (funext fun a => Fin.ext ?_)
  match a with
  | ⟨0, _⟩ => rfl
  | ⟨1, _⟩ => rfl

theorem pay3_apply (x0 : FVec Ideal S51200 .f32) (p : Fin 51200) :
    k0_pay3 (F := Ideal) x0 (ix1 p) = x0 (ix1 p) * invBohr := by
  show x0 (ix1 p) * Named.named (F := Ideal) Cert.KernelIdeal.κ "inv_bohr" (φ := .f32) 0x3FF1E28C#32 = _
  rw [named_inv_bohr]

theorem pay4_apply (x1 : FVec Ideal S51200x3 .f32) (p : Fin 51200) (q : Fin 3) :
    k0_pay4 (F := Ideal) x1 (ix2 p q) = x1 (ix2 p q) * invBohr := by
  show x1 (ix2 p q) * Named.named (F := Ideal) Cert.KernelIdeal.κ "inv_bohr" (φ := .f32) 0x3FF1E28C#32 = _
  rw [named_inv_bohr]

theorem pay2_eq (x4 : FVec Ideal S51200x3 .f32) : k0_pay2 (F := Ideal) x4 = x4 := shapeCast_self _ _

/-- t = ((A · u) · u) · u with u = r / exp (log (pd · ps) · s), r the scaled distance. -/
theorem pay5_apply (x0 x2 x3 : FVec Ideal S51200 .f32) (p : Fin 51200) :
    k0_pay5 (F := Ideal) x0 x2 x3 (ix1 p)
      = aMut * Ideal.div (x0 (ix1 p) * invBohr) (Ideal.exp (Ideal.log (x2 (ix1 p) * x3 (ix1 p)) * sixth))
          * Ideal.div (x0 (ix1 p) * invBohr) (Ideal.exp (Ideal.log (x2 (ix1 p) * x3 (ix1 p)) * sixth))
          * Ideal.div (x0 (ix1 p) * invBohr) (Ideal.exp (Ideal.log (x2 (ix1 p) * x3 (ix1 p)) * sixth)) := by
  unfold k0_pay5
  simp only [shapeCast_self]
  show aMut * Ideal.div (k0_pay3 (F := Ideal) x0 (ix1 p)) (Ideal.exp (Ideal.log (x2 (ix1 p) * x3 (ix1 p)) * sixth))
        * Ideal.div (k0_pay3 (F := Ideal) x0 (ix1 p)) (Ideal.exp (Ideal.log (x2 (ix1 p) * x3 (ix1 p)) * sixth))
        * Ideal.div (k0_pay3 (F := Ideal) x0 (ix1 p)) (Ideal.exp (Ideal.log (x2 (ix1 p) * x3 (ix1 p)) * sixth)) = _
  rw [pay3_apply]

/-- e = exp (0 - t). -/
theorem pay6_apply (x0 x2 x3 : FVec Ideal S51200 .f32) (p : Fin 51200) :
    k0_pay6 (F := Ideal) x0 x2 x3 (ix1 p) = Ideal.exp (0 - k0_pay5 (F := Ideal) x0 x2 x3 (ix1 p)) := by
  show Ideal.exp (Ideal.ofBits .f32 0x00000000#32 - k0_pay5 (F := Ideal) x0 x2 x3 (ix1 p)) = _
  rw [Ideal.ofBits_zero_f32]

/-- λ₅ = 1 - (1 + t) · e. -/
theorem pay7_apply (x0 x2 x3 : FVec Ideal S51200 .f32) (p : Fin 51200) :
    k0_pay7 (F := Ideal) x0 x2 x3 (ix1 p)
      = 1 - (1 + k0_pay5 (F := Ideal) x0 x2 x3 (ix1 p)) * k0_pay6 (F := Ideal) x0 x2 x3 (ix1 p) := by
  show Ideal.ofBits .f32 0x3F800000#32 - (Ideal.ofBits .f32 0x3F800000#32 + k0_pay5 (F := Ideal) x0 x2 x3 (ix1 p))
      * k0_pay6 (F := Ideal) x0 x2 x3 (ix1 p) = _
  rw [one_word]

/-- 1 / ((r · r) · r). -/
theorem pay8_apply (x0 : FVec Ideal S51200 .f32) (p : Fin 51200) :
    k0_pay8 (F := Ideal) x0 (ix1 p)
      = Ideal.div 1 (x0 (ix1 p) * invBohr * (x0 (ix1 p) * invBohr) * (x0 (ix1 p) * invBohr)) := by
  show Ideal.div (Ideal.ofBits .f32 0x3F800000#32)
      (k0_pay3 (F := Ideal) x0 (ix1 p) * k0_pay3 (F := Ideal) x0 (ix1 p) * k0_pay3 (F := Ideal) x0 (ix1 p)) = _
  rw [one_word, pay3_apply]

/-- (1 / r³) / (r · r). -/
theorem pay9_apply (x0 : FVec Ideal S51200 .f32) (p : Fin 51200) :
    k0_pay9 (F := Ideal) x0 (ix1 p)
      = Ideal.div (k0_pay8 (F := Ideal) x0 (ix1 p)) (x0 (ix1 p) * invBohr * (x0 (ix1 p) * invBohr)) := by
  show Ideal.div (k0_pay8 (F := Ideal) x0 (ix1 p)) (k0_pay3 (F := Ideal) x0 (ix1 p) * k0_pay3 (F := Ideal) x0 (ix1 p)) = _
  rw [pay3_apply]

/-- The dot product of the scaled displacement with the dipole, as a column. -/
theorem pay10_apply (x1 x4 : FVec Ideal S51200x3 .f32) (p : Fin 51200) (u : Fin 1) :
    k0_pay10 (F := Ideal) x1 x4 (ix2 p u) = ∑ k : Fin 3, x1 (ix2 p k) * invBohr * x4 (ix2 p k) := by
  unfold k0_pay10
  refine (shapeCast_a_a1_apply _ _ p u).trans ?_
  refine (rowSum_apply _ p).trans ?_
  refine Finset.sum_congr rfl fun k _ => ?_
  show k0_pay4 (F := Ideal) x1 (ix2 p k) * k0_pay2 (F := Ideal) x4 (ix2 p k) = _
  rw [pay4_apply, pay2_eq]

/-- λ₃ / r³. -/
theorem pay11_apply (x0 x2 x3 : FVec Ideal S51200 .f32) (p : Fin 51200) :
    k0_pay11 (F := Ideal) x0 x2 x3 (ix1 p)
      = (1 - k0_pay6 (F := Ideal) x0 x2 x3 (ix1 p)) * k0_pay8 (F := Ideal) x0 (ix1 p) := by
  show (Ideal.ofBits .f32 0x3F800000#32 - k0_pay6 (F := Ideal) x0 x2 x3 (ix1 p)) * k0_pay8 (F := Ideal) x0 (ix1 p) = _
  rw [one_word]

/-- The stored value at (p, q) from the six values the body's first part hands on. -/
theorem pay1_apply (v7 v11 : FVec Ideal S51200x3 .f32) (v31 v37 : FVec Ideal S51200 .f32) (v40 : FVec Ideal S51200x1 .f32)
    (v41 : FVec Ideal S51200 .f32) (p : Fin 51200) (q : Fin 3) :
    k0_pay1 (F := Ideal) v7 v11 v31 v37 v40 v41 (ix2 p q)
      = v41 (ix1 p) * v7 (ix2 p q) - three * v31 (ix1 p) * v37 (ix1 p) * v40 (ix2 p (0 : Fin 1)) * v11 (ix2 p q) := by
  unfold k0_pay1
  show broadcastTo S51200x3 (shapeCast S51200x1 v41 _) _ (ix2 p q) * v7 (ix2 p q)
      - broadcastTo S51200x3 (mulf (shapeCast S51200x1 (mulf (mulf (broadcast S51200 (Scalar.ofBits .f32 0x40400000#32)) v31) v37) _) v40) _ (ix2 p q)
        * v11 (ix2 p q) = _
  rw [broadcastTo_a1_ab_apply, broadcastTo_a1_ab_apply, shapeCast_a_a1_apply]
  show v41 (ix1 p) * v7 (ix2 p q)
      - shapeCast S51200x1 (mulf (mulf (broadcast S51200 (Scalar.ofBits .f32 0x40400000#32)) v31) v37) _ (ix2 p (0 : Fin 1)) * v40 (ix2 p (0 : Fin 1))
        * v11 (ix2 p q) = _
  rw [shapeCast_a_a1_apply]
  rfl

/-- What the edge kernel's body leaves in its output block at (p, q): the per-edge term in the kernel's form, of the
    row p of the five input blocks. -/
theorem out0_5_apply (x0 : FVec Ideal S51200 .f32) (x1 : FVec Ideal S51200x3 .f32) (x2 x3 : FVec Ideal S51200 .f32)
    (x4 : FVec Ideal S51200x3 .f32) (p : Fin 51200) (q : Fin 3) :
    out0_5 (F := Ideal) x0 x1 x2 x3 x4 (ix2 p q)
      = edgeTermKernel (x0 (ix1 p)) (x2 (ix1 p)) (x3 (ix1 p)) (fun k => x1 (ix2 p k)) (fun k => x4 (ix2 p k)) q := by
  unfold out0_5
  rw [View.canon_unit_zero hz2]
  simp only [View.ld_unit_zero (S := S51200x3) hz2, View.ld_unit_zero (S := S51200) hz1]
  rw [pay1_apply, pay11_apply, pay2_eq, pay7_apply, pay9_apply, pay10_apply, pay4_apply, pay8_apply, pay6_apply, pay5_apply]
  rfl

/-- What the final kernel's body leaves in its output block at (n, q): the dipole over the polarisability, plus the field. -/
theorem out1_3_apply (x0 : FVec Ideal S200000x3 .f32) (x1 : FVec Ideal S200000 .f32) (x2 : FVec Ideal S200000x3 .f32)
    (n : Fin 200000) (q : Fin 3) :
    out1_3 (F := Ideal) x0 x1 x2 (ix2 n q) = Ideal.div (x0 (ix2 n q)) (x1 (ix1 n)) + x2 (ix2 n q) := by
  unfold out1_3
  rw [View.canon_unit_zero hz2]
  simp only [View.ld_unit_zero (S := S200000x3) hz2, View.ld_unit_zero (S := S200000) hz1]
  unfold k1_pay1
  simp only [shapeCast_self]
  show Ideal.div (x0 (ix2 n q)) (broadcastTo S200000x3 (shapeCast S200000x1 x1 _) _ (ix2 n q)) + x2 (ix2 n q) = _
  rw [broadcastTo_a1_ab_apply, shapeCast_a_a1_apply]

end Cert.Dipole

end
-- ==== Proof.Region0.lean ====
/-
  The contribution array after the edge kernel's region.

  The region walks 125 grid points; point t stages rows t · 51200 … t · 51200 + 51199 of each of the five edge
  arrays (distance, displacement, the two gathered polarisabilities, the gathered dipole) and writes back the same
  rows of the output. Row p of a staged block is row t · 51200 + p of its array, so by the block lemma the block
  point t writes back is block t of the whole-array per-edge term; the 125 blocks cover all 6400000 rows (row r lies
  in block r / 51200), so the array the region leaves is that term of the five arrays the region found — provided
  the product of the two gathered polarisabilities is nowhere negative, where the kernel's form of the term is the
  reference's.
-/
import proofs.«425052_j68865505624311_1_alg».proof.Proof.Gen.KernelIdeal.Frame
import proofs.«425052_j68865505624311_1_alg».proof.Proof.KernelBlock
import Idealize.ShloMosaic.Lib.Pipeline.Value
import Idealize.ShloMosaic.Lib.ValueIdx

set_option maxRecDepth 16384

noncomputable section

namespace Cert.Dipole

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The five edge arrays as the region finds them. -/
abbrev distArr (c : Dev nD) : FVec Ideal S6400000 .f32 := V c main_arg3
abbrev vecArr (c : Dev nD) : FVec Ideal S6400000x3 .f32 := V c main_arg4
abbrev polDstArr (c : Dev nD) : FVec Ideal S6400000 .f32 := V c main_v8
abbrev polSrcArr (c : Dev nD) : FVec Ideal S6400000 .f32 := V c main_v15
abbrev muDstArr (c : Dev nD) : FVec Ideal S6400000x3 .f32 := V c main_v22

/-- Their blocks at grid point t. -/
abbrev distBlk (c : Dev nD) (t : Fin cfg0.N) : FVec Ideal S51200 .f32 := iblk0 V c 0 t
abbrev vecBlk (c : Dev nD) (t : Fin cfg0.N) : FVec Ideal S51200x3 .f32 := iblk0 V c 1 t
abbrev polDstBlk (c : Dev nD) (t : Fin cfg0.N) : FVec Ideal S51200 .f32 := iblk0 V c 2 t
abbrev polSrcBlk (c : Dev nD) (t : Fin cfg0.N) : FVec Ideal S51200 .f32 := iblk0 V c 3 t
abbrev muDstBlk (c : Dev nD) (t : Fin cfg0.N) : FVec Ideal S51200x3 .f32 := iblk0 V c 4 t

/-- Every window's block index at point t is (t) on the edge axis and 0 on the component axis. -/
theorem idx_facts0 : ∀ t : Fin cfg0.N, win0_0.index t (0 : Fin 1) = t.val
    ∧ win0_1.index t (0 : Fin 2) = t.val ∧ win0_1.index t (1 : Fin 2) = 0
    ∧ win0_2.index t (0 : Fin 1) = t.val ∧ win0_3.index t (0 : Fin 1) = t.val
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem N0_eq : cfg0.N = 125 := N_0

/-- Row t · 51200 + p is a row of the arrays. -/
theorem row_lt (t : Fin cfg0.N) (p : Fin 51200) : t.val * 51200 + p.val < 6400000 := by
  have := t.isLt; have := N0_eq; have := p.isLt; omega

/-- The row of the arrays that row p of point t's blocks is. -/
abbrev rowOf (t : Fin cfg0.N) (p : Fin 51200) : Fin 6400000 := ⟨t.val * 51200 + p.val, row_lt t p⟩

theorem distBlk_apply (c : Dev nD) (t : Fin cfg0.N) (p : Fin 51200) :
    distBlk V c t (ix1 p) = distArr V c (ix1 (rowOf t p)) := by
  show V c main_arg3 (((cfg0.win 0).blk t).view.emb (ix1 p)) = V c main_arg3 (ix1 (rowOf t p))
  have h0 : ((cfg0.win 0).blk t).view.emb (ix1 p) = ix1 (rowOf t p) := by
    funext a; apply Fin.ext
    match a with
    | ⟨0, _⟩ => show win0_0.index t (0 : Fin 1) * 51200 + 1 * p.val = t.val * 51200 + p.val; rw [(idx_facts0 t).1]; omega
  rw [h0]

theorem polDstBlk_apply (c : Dev nD) (t : Fin cfg0.N) (p : Fin 51200) :
    polDstBlk V c t (ix1 p) = polDstArr V c (ix1 (rowOf t p)) := by
  show V c main_v8 (((cfg0.win 2).blk t).view.emb (ix1 p)) = V c main_v8 (ix1 (rowOf t p))
  have h0 : ((cfg0.win 2).blk t).view.emb (ix1 p) = ix1 (rowOf t p) := by
    funext a; apply Fin.ext
    match a with
    | ⟨0, _⟩ => show win0_2.index t (0 : Fin 1) * 51200 + 1 * p.val = t.val * 51200 + p.val; rw [(idx_facts0 t).2.2.2.1]; omega
  rw [h0]

theorem polSrcBlk_apply (c : Dev nD) (t : Fin cfg0.N) (p : Fin 51200) :
    polSrcBlk V c t (ix1 p) = polSrcArr V c (ix1 (rowOf t p)) := by
  show V c main_v15 (((cfg0.win 3).blk t).view.emb (ix1 p)) = V c main_v15 (ix1 (rowOf t p))
  have h0 : ((cfg0.win 3).blk t).view.emb (ix1 p) = ix1 (rowOf t p) := by
    funext a; apply Fin.ext
    match a with
    | ⟨0, _⟩ => show win0_3.index t (0 : Fin 1) * 51200 + 1 * p.val = t.val * 51200 + p.val; rw [(idx_facts0 t).2.2.2.2.1]; omega
  rw [h0]

theorem vecBlk_apply (c : Dev nD) (t : Fin cfg0.N) (p : Fin 51200) (k : Fin 3) :
    vecBlk V c t (ix2 p k) = vecArr V c (ix2 (rowOf t p) k) := by
  show V c main_arg4 (((cfg0.win 1).blk t).view.emb (ix2 p k)) = V c main_arg4 (ix2 (rowOf t p) k)
  have h0 : ((cfg0.win 1).blk t).view.emb (ix2 p k) = ix2 (rowOf t p) k := by
    funext a; apply Fin.ext
    match a with
    | ⟨0, _⟩ => show win0_1.index t (0 : Fin 2) * 51200 + 1 * p.val = t.val * 51200 + p.val; rw [(idx_facts0 t).2.1]; omega
    | ⟨1, _⟩ => show win0_1.index t (1 : Fin 2) * 3 + 1 * k.val = k.val; rw [(idx_facts0 t).2.2.1]; omega
  rw [h0]

theorem muDstBlk_apply (c : Dev nD) (t : Fin cfg0.N) (p : Fin 51200) (k : Fin 3) :
    muDstBlk V c t (ix2 p k) = muDstArr V c (ix2 (rowOf t p) k) := by
  show V c main_v22 (((cfg0.win 4).blk t).view.emb (ix2 p k)) = V c main_v22 (ix2 (rowOf t p) k)
  have h0 : ((cfg0.win 4).blk t).view.emb (ix2 p k) = ix2 (rowOf t p) k := by
    funext a; apply Fin.ext
    match a with
    | ⟨0, _⟩ => show win0_4.index t (0 : Fin 2) * 51200 + 1 * p.val = t.val * 51200 + p.val; rw [(idx_facts0 t).2.2.2.2.2.1]; omega
    | ⟨1, _⟩ => show win0_4.index t (1 : Fin 2) * 3 + 1 * k.val = k.val; rw [(idx_facts0 t).2.2.2.2.2.2.1]; omega
  rw [h0]

/-- Row p, component q of the output block of point t is row t · 51200 + p, component q of the output array. -/
theorem outBlk_emb (t : Fin cfg0.N) (p : Fin 51200) (q : Fin 3) :
    ((cfg0.win 5).blk t).view.emb (ix2 p q) = ix2 (rowOf t p) q := by
  funext a; apply Fin.ext
  match a with
  | ⟨0, _⟩ => show win0_5.index t (0 : Fin 2) * 51200 + 1 * p.val = t.val * 51200 + p.val; rw [(idx_facts0 t).2.2.2.2.2.2.2.1]; omega
  | ⟨1, _⟩ => show win0_5.index t (1 : Fin 2) * 3 + 1 * q.val = q.val; rw [(idx_facts0 t).2.2.2.2.2.2.2.2]; omega

/-- The whole-array per-edge term of the five arrays the region finds. -/
abbrev fieldOf (c : Dev nD) : FVec Ideal S6400000x3 .f32 :=
  edgeField (distArr V c) (polDstArr V c) (polSrcArr V c) (vecArr V c) (muDstArr V c)

/-- What point t writes back is block t of the whole-array term. -/
theorem flushed5_eq (c : Dev nD) (hα : ∀ e : Fin 6400000, 0 ≤ polDstArr V c (ix1 e) * polSrcArr V c (ix1 e)) (t : Fin cfg0.N) :
    (dat0 V c).flushed 5 t = ((cfg0.win 5).blk t).view.read (Elt Ideal) (fieldOf V c) := by
  show (cfg0.win 5).cut (grid0.coords t) ((dat0 V c).after 5 t) = _
  rw [after0_5]
  funext j
  obtain ⟨p, q, rfl⟩ : ∃ (p : Fin 51200) (q : Fin 3), j = ix2 p q := ⟨j 0, j 1, eq_ix2 j⟩
  show out0_5 (F := Ideal) (distBlk V c t) (vecBlk V c t) (polDstBlk V c t) (polSrcBlk V c t) (muDstBlk V c t) (ix2 p q)
      = fieldOf V c (((cfg0.win 5).blk t).view.emb (ix2 p q))
  rw [outBlk_emb]
  refine (out0_5_apply (distBlk V c t) (vecBlk V c t) (polDstBlk V c t) (polSrcBlk V c t) (muDstBlk V c t) p q).trans ?_
  have h : 0 ≤ polDstBlk V c t (ix1 p) * polSrcBlk V c t (ix1 p) := by
    rw [polDstBlk_apply, polSrcBlk_apply]; exact hα _
  refine (edgeTermKernel_eq _ _ _ _ _ q h).trans ?_
  rw [distBlk_apply, polDstBlk_apply, polSrcBlk_apply]
  simp only [vecBlk_apply, muDstBlk_apply]
  rfl

/-- An index of the output array is in point t's block iff each coordinate is in the block's range on its axis. -/
theorem mem_blk5 (t : Fin cfg0.N) (i : S6400000x3.Idx) :
    i ∈ ((cfg0.win 5).blk t).view.set ↔ ∀ a : Fin 2, win0_5.index t a * S51200x3.size a ≤ (i a).val ∧ (i a).val < win0_5.index t a * S51200x3.size a + S51200x3.size a := by
  show i ∈ ((View.whole main_v23).slice (win0_5.rect t)).set ↔ _
  rw [View.set_slice_whole, Rect.mem_set_unit]
  exact Iff.rfl

/-- Every index of the output array is in the block of the point (row / 51200). -/
theorem cover5 (i : S6400000x3.Idx) : ∃ t : Fin cfg0.N, (cfg0.win 5).flush t = true ∧ i ∈ ((cfg0.win 5).blk t).view.set := by
  have hi0 : (i 0).val < 6400000 := (i 0).isLt
  have hi1 : (i 1).val < 3 := (i 1).isLt
  have hN := N0_eq
  refine ⟨⟨(i 0).val / 51200, by omega⟩, flush0_5 _, ?_⟩
  rw [mem_blk5]
  obtain ⟨-, -, -, -, -, -, -, e0, e1⟩ := idx_facts0 ⟨(i 0).val / 51200, by omega⟩
  intro a
  match a with
  | ⟨0, _⟩ =>
    show win0_5.index _ (0 : Fin 2) * 51200 ≤ (i 0).val ∧ (i 0).val < win0_5.index _ (0 : Fin 2) * 51200 + 51200
    rw [e0]; show (i 0).val / 51200 * 51200 ≤ (i 0).val ∧ (i 0).val < (i 0).val / 51200 * 51200 + 51200; omega
  | ⟨1, _⟩ =>
    show win0_5.index _ (1 : Fin 2) * 3 ≤ (i 1).val ∧ (i 1).val < win0_5.index _ (1 : Fin 2) * 3 + 3
    rw [e1]; omega

/-- THE ARRAY the edge kernel's region leaves: the whole-array per-edge term of the five arrays it found. -/
theorem region0_array (c : Dev nD) (hα : ∀ e : Fin 6400000, 0 ≤ polDstArr V c (ix1 e) * polSrcArr V c (ix1 e)) :
    (dat0 V c).arrAt 5 cfg0.N = fieldOf V c :=
  (dat0 V c).arrAt_eq_of_cover 5 (fieldOf V c) (fun t _ => flushed5_eq V c hα t) cover5

end Cert.Dipole

end
-- ==== Proof.Region1.lean ====
/-
  The node array after the final kernel's region.

  The region has one grid point whose blocks are the whole arrays: the dipole array, the rescaled polarisabilities
  and the field. By the block lemma the block it writes back is, at node n and component q, dipole / polarisability
  + field, and the one block covers the whole output array.
-/
import proofs.«425052_j68865505624311_1_alg».proof.Proof.Gen.KernelIdeal.Frame
import proofs.«425052_j68865505624311_1_alg».proof.Proof.KernelBlock
import Idealize.ShloMosaic.Lib.Pipeline.Value
import Idealize.ShloMosaic.Lib.ValueIdx

set_option maxRecDepth 16384

noncomputable section

namespace Cert.Dipole

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

/-- The three node arrays as the region finds them. -/
abbrev muArr (c : Dev nD) : FVec Ideal S200000x3 .f32 := V c main_arg6
abbrev polArr (c : Dev nD) : FVec Ideal S200000 .f32 := V c main_v1
abbrev sumArr (c : Dev nD) : FVec Ideal S200000x3 .f32 := V c main_v26

/-- Their blocks at the one grid point. -/
abbrev muBlk (c : Dev nD) (t : Fin cfg1.N) : FVec Ideal S200000x3 .f32 := iblk1 V c 0 t
abbrev polBlk (c : Dev nD) (t : Fin cfg1.N) : FVec Ideal S200000 .f32 := iblk1 V c 1 t
abbrev sumBlk (c : Dev nD) (t : Fin cfg1.N) : FVec Ideal S200000x3 .f32 := iblk1 V c 2 t

/-- Every window's block index is 0 on every axis. -/
theorem idx_facts1 : ∀ t : Fin cfg1.N, win1_0.index t (0 : Fin 2) = 0 ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

theorem muBlk_apply (c : Dev nD) (t : Fin cfg1.N) (n : Fin 200000) (q : Fin 3) :
    muBlk V c t (ix2 n q) = muArr V c (ix2 n q) := by
  show V c main_arg6 (((cfg1.win 0).blk t).view.emb (ix2 n q)) = V c main_arg6 (ix2 n q)
  have h0 : ((cfg1.win 0).blk t).view.emb (ix2 n q) = ix2 n q := by
    funext a; apply Fin.ext
    match a with
    | ⟨0, _⟩ => show win1_0.index t (0 : Fin 2) * 200000 + 1 * n.val = n.val; rw [(idx_facts1 t).1]; omega
    | ⟨1, _⟩ => show win1_0.index t (1 : Fin 2) * 3 + 1 * q.val = q.val; rw [(idx_facts1 t).2.1]; omega
  rw [h0]

theorem polBlk_apply (c : Dev nD) (t : Fin cfg1.N) (n : Fin 200000) :
    polBlk V c t (ix1 n) = polArr V c (ix1 n) := by
  show V c main_v1 (((cfg1.win 1).blk t).view.emb (ix1 n)) = V c main_v1 (ix1 n)
  have h0 : ((cfg1.win 1).blk t).view.emb (ix1 n) = ix1 n := by
    funext a; apply Fin.ext
    match a with
    | ⟨0, _⟩ => show win1_1.index t (0 : Fin 1) * 200000 + 1 * n.val = n.val; rw [(idx_facts1 t).2.2.1]; omega
  rw [h0]

theorem sumBlk_apply (c : Dev nD) (t : Fin cfg1.N) (n : Fin 200000) (q : Fin 3) :
    sumBlk V c t (ix2 n q) = sumArr V c (ix2 n q) := by
  show V c main_v26 (((cfg1.win 2).blk t).view.emb (ix2 n q)) = V c main_v26 (ix2 n q)
  have h0 : ((cfg1.win 2).blk t).view.emb (ix2 n q) = ix2 n q := by
    funext a; apply Fin.ext
    match a with
    | ⟨0, _⟩ => show win1_2.index t (0 : Fin 2) * 200000 + 1 * n.val = n.val; rw [(idx_facts1 t).2.2.2.1]; omega
    | ⟨1, _⟩ => show win1_2.index t (1 : Fin 2) * 3 + 1 * q.val = q.val; rw [(idx_facts1 t).2.2.2.2.1]; omega
  rw [h0]

theorem nodeBlk_emb (t : Fin cfg1.N) (n : Fin 200000) (q : Fin 3) :
    ((cfg1.win 3).blk t).view.emb (ix2 n q) = ix2 n q := by
  funext a; apply Fin.ext
  match a with
  | ⟨0, _⟩ => show win1_3.index t (0 : Fin 2) * 200000 + 1 * n.val = n.val; rw [(idx_facts1 t).2.2.2.2.2.1]; omega
  | ⟨1, _⟩ => show win1_3.index t (1 : Fin 2) * 3 + 1 * q.val = q.val; rw [(idx_facts1 t).2.2.2.2.2.2]; omega

/-- Dipole over polarisability plus field, of the three arrays the region finds. -/
abbrev nodeOf (c : Dev nD) : FVec Ideal S200000x3 .f32 := nodeField (muArr V c) (polArr V c) (sumArr V c)

/-- What the one point writes back is the whole node array. -/
theorem flushed3_eq (c : Dev nD) (t : Fin cfg1.N) :
    (dat1 V c).flushed 3 t = ((cfg1.win 3).blk t).view.read (Elt Ideal) (nodeOf V c) := by
  show (cfg1.win 3).cut (grid1.coords t) ((dat1 V c).after 3 t) = _
  rw [after1_3]
  funext j
  obtain ⟨n, q, rfl⟩ : ∃ (n : Fin 200000) (q : Fin 3), j = ix2 n q := ⟨j 0, j 1, eq_ix2 j⟩
  show out1_3 (F := Ideal) (muBlk V c t) (polBlk V c t) (sumBlk V c t) (ix2 n q)
      = nodeOf V c (((cfg1.win 3).blk t).view.emb (ix2 n q))
  rw [nodeBlk_emb]
  refine (out1_3_apply (muBlk V c t) (polBlk V c t) (sumBlk V c t) n q).trans ?_
  rw [muBlk_apply, polBlk_apply, sumBlk_apply]
  rfl

theorem mem_blk3 (t : Fin cfg1.N) (i : S200000x3.Idx) :
    i ∈ ((cfg1.win 3).blk t).view.set ↔ ∀ a : Fin 2, win1_3.index t a * S200000x3.size a ≤ (i a).val ∧ (i a).val < win1_3.index t a * S200000x3.size a + S200000x3.size a := by
  show i ∈ ((View.whole main_v27).slice (win1_3.rect t)).set ↔ _
  rw [View.set_slice_whole, Rect.mem_set_unit]
  exact Iff.rfl

theorem cover3 (i : S200000x3.Idx) : ∃ t : Fin cfg1.N, (cfg1.win 3).flush t = true ∧ i ∈ ((cfg1.win 3).blk t).view.set := by
  have hi0 : (i 0).val < 200000 := (i 0).isLt
  have hi1 : (i 1).val < 3 := (i 1).isLt
  refine ⟨t1_0, flush1_3 _, ?_⟩
  rw [mem_blk3]
  obtain ⟨-, -, -, -, -, e0, e1⟩ := idx_facts1 t1_0
  intro a
  match a with
  | ⟨0, _⟩ =>
    show win1_3.index t1_0 (0 : Fin 2) * 200000 ≤ (i 0).val ∧ (i 0).val < win1_3.index t1_0 (0 : Fin 2) * 200000 + 200000
    rw [e0]; omega
  | ⟨1, _⟩ =>
    show win1_3.index t1_0 (1 : Fin 2) * 3 ≤ (i 1).val ∧ (i 1).val < win1_3.index t1_0 (1 : Fin 2) * 3 + 3
    rw [e1]; omega

/-- THE ARRAY the final kernel's region leaves. -/
theorem region1_array (c : Dev nD) : (dat1 V c).arrAt 3 cfg1.N = nodeOf V c :=
  (dat1 V c).arrAt_eq_of_cover 3 (nodeOf V c) (fun t _ => flushed3_eq V c t) cover3

end Cert.Dipole

end
-- ==== Proof.KernelValue.lean ====
/-
  The kernel program's result array as a function of the launch memory.

  The run's boundary contents are a fold through @main: the host operations before the edge kernel (the rescaled
  polarisabilities and the three gathers), the edge kernel's region, the host scatter-add of its output by source
  node, and the final kernel's region. Read back from the result array: it is dipole / polarisability + field at
  each node (Region1), the field is the scatter-add of the contribution array, the contribution array is the
  whole-array per-edge term of the arrays the first region found (Region0), and those are the launch distance and
  displacement and the three gathers — the same functions of the launch arrays as the reference's own stages.
-/
import proofs.«425052_j68865505624311_1_alg».proof.Proof.RunValue
import proofs.«425052_j68865505624311_1_alg».proof.Proof.Region0
import proofs.«425052_j68865505624311_1_alg».proof.Proof.Region1
import proofs.«425052_j68865505624311_1_alg».proof.Proof.RefResult
import Idealize.ShloMosaic.Lib.StableHlo.Run

set_option maxRecDepth 16384

noncomputable section

namespace Cert.Dipole

open Idealize.ShloMosaic Idealize.ShloMosaic.TcCoe Idealize.ShloMosaic.ValueIdx Idealize.SL.Sem
open Cert.KernelIdeal Cert.KernelIdeal.Gen
open Idealize.ShloMosaic.StableHlo

variable (m : (ℓ : Loc nD τ sig) → Buf (Elt Ideal) ℓ) (ρ : Dev nD → PrngReg)

/-! ## The first region's entry contents -/

theorem V1_arg3 (c : Dev nD) : V1 m ρ c main_arg3 = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem V1_arg4 (c : Dev nD) : V1 m ρ c main_arg4 = m ((c : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The polarisability gathered at each edge's destination, as the reference's own stage. -/
theorem V1_v8 (c : Dev nD) : V1 m ρ c main_v8
    = Cert.ReferenceIdeal.Read.val_main_v12 (F := Ideal) (m ((c : Thread nD τ).loc main_arg2)) (m ((c : Thread nD τ).loc main_arg5)) := by
  show StableHlo.after hostOps0 (W0 m ρ c) (Proc.devRef .tc main_v8) = _
  after_results
  rfl

/-- The polarisability gathered at each edge's source. -/
theorem V1_v15 (c : Dev nD) : V1 m ρ c main_v15
    = Cert.ReferenceIdeal.Read.val_main_v19 (F := Ideal) (m ((c : Thread nD τ).loc main_arg1)) (m ((c : Thread nD τ).loc main_arg5)) := by
  show StableHlo.after hostOps0 (W0 m ρ c) (Proc.devRef .tc main_v15) = _
  after_results
  rfl

/-- The dipole gathered at each edge's destination. -/
theorem V1_v22 (c : Dev nD) : V1 m ρ c main_v22
    = Cert.ReferenceIdeal.Read.val_main_v43 (F := Ideal) (m ((c : Thread nD τ).loc main_arg2)) (m ((c : Thread nD τ).loc main_arg6)) := by
  show StableHlo.after hostOps0 (W0 m ρ c) (Proc.devRef .tc main_v22) = _
  after_results_simp
  rfl

/-- The rescaled polarisabilities. -/
theorem W1_v1 (c : Dev nD) : W1 m ρ c (Proc.devRef .tc main_v1)
    = Cert.ReferenceIdeal.Read.val_main_v5 (F := Ideal) (m ((c : Thread nD τ).loc main_arg5)) := by
  show StableHlo.after hostOps0 (W0 m ρ c) (Proc.devRef .tc main_v1) = _
  after_results
  rfl

/-! ## Between the regions -/

/-- The contribution array the first region leaves is the whole-array per-edge term of the launch arrays and the three
    gathers, where the product of the two gathered polarisabilities is nowhere negative. -/
theorem W2_v23 (c : Dev nD) (hα : ∀ e : Fin 6400000, 0 ≤ Cert.ReferenceIdeal.Read.val_main_v12 (F := Ideal) (m ((c : Thread nD τ).loc main_arg2)) (m ((c : Thread nD τ).loc main_arg5)) (ix1 e) * Cert.ReferenceIdeal.Read.val_main_v19 (F := Ideal) (m ((c : Thread nD τ).loc main_arg1)) (m ((c : Thread nD τ).loc main_arg5)) (ix1 e)) :
    W2 m ρ c (Proc.devRef .tc main_v23) = contribOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h3 : distArr (V1 m ρ) c = m ((c : Thread nD τ).loc main_arg3) := V1_arg3 m ρ c
  have h4 : vecArr (V1 m ρ) c = m ((c : Thread nD τ).loc main_arg4) := V1_arg4 m ρ c
  have h8 : polDstArr (V1 m ρ) c
      = Cert.ReferenceIdeal.Read.val_main_v12 (F := Ideal) (m ((c : Thread nD τ).loc main_arg2)) (m ((c : Thread nD τ).loc main_arg5)) := V1_v8 m ρ c
  have h15 : polSrcArr (V1 m ρ) c
      = Cert.ReferenceIdeal.Read.val_main_v19 (F := Ideal) (m ((c : Thread nD τ).loc main_arg1)) (m ((c : Thread nD τ).loc main_arg5)) := V1_v15 m ρ c
  have h22 : muDstArr (V1 m ρ) c
      = Cert.ReferenceIdeal.Read.val_main_v43 (F := Ideal) (m ((c : Thread nD τ).loc main_arg2)) (m ((c : Thread nD τ).loc main_arg6)) := V1_v22 m ρ c
  refine (W2_arr m ρ c 5).trans ?_
  refine (region0_array (V1 m ρ) c ?_).trans ?_
  · intro e
    rw [h8, h15]; exact hα e
  · show edgeField (distArr (V1 m ρ) c) (polDstArr (V1 m ρ) c) (polSrcArr (V1 m ρ) c) (vecArr (V1 m ρ) c) (muDstArr (V1 m ρ) c) = _
    rw [h3, h4, h8, h15, h22]
    rfl

theorem W2_arg1 (c : Dev nD) : W2 m ρ c (Proc.devRef .tc main_arg1) = m ((c : Thread nD τ).loc main_arg1) :=
  (W2_of_ne m ρ c main_arg1 (by decide)).trans ((StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_arg6 (c : Dev nD) : W2 m ρ c (Proc.devRef .tc main_arg6) = m ((c : Thread nD τ).loc main_arg6) :=
  (W2_of_ne m ρ c main_arg6 (by decide)).trans ((StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl)

theorem W2_v1 (c : Dev nD) : W2 m ρ c (Proc.devRef .tc main_v1)
    = Cert.ReferenceIdeal.Read.val_main_v5 (F := Ideal) (m ((c : Thread nD τ).loc main_arg5)) :=
  (W2_of_ne m ρ c main_v1 (by decide)).trans (W1_v1 m ρ c)

/-! ## The second region's entry contents -/

theorem V3_arg6 (c : Dev nD) : V3 m ρ c main_arg6 = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg6 m ρ c)

theorem V3_v1 (c : Dev nD) : V3 m ρ c main_v1 = Cert.ReferenceIdeal.Read.val_main_v5 (F := Ideal) (m ((c : Thread nD τ).loc main_arg5)) :=
  (StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v1 m ρ c)

/-- The field: the contributions summed by source node into zeros. -/
theorem V3_v26 (c : Dev nD) (hα : ∀ e : Fin 6400000, 0 ≤ Cert.ReferenceIdeal.Read.val_main_v12 (F := Ideal) (m ((c : Thread nD τ).loc main_arg2)) (m ((c : Thread nD τ).loc main_arg5)) (ix1 e) * Cert.ReferenceIdeal.Read.val_main_v19 (F := Ideal) (m ((c : Thread nD τ).loc main_arg1)) (m ((c : Thread nD τ).loc main_arg5)) (ix1 e)) :
    V3 m ρ c main_v26
      = Host.scatterAdd Cert.ReferenceIdeal.scatter_S200000x3_S6400000x1_S6400000x3_1_0_0_1
          (Cert.ReferenceIdeal.Read.val_main_v67 (F := Ideal)) (Cert.ReferenceIdeal.Read.val_main_v68 (F := Ideal) (m ((c : Thread nD τ).loc main_arg1)))
          (contribOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  show StableHlo.after hostOps1 (W2 m ρ c) (Proc.devRef .tc main_v26) = _
  after_results
  rw [W2_arg1, W2_v23 m ρ c hα]
  rfl

/-! ## The result array -/

/-- THE RESULT of the kernel program as the shared closed form of the launch arrays. -/
theorem kernel_result (c : Dev nD) (hα : ∀ e : Fin 6400000, 0 ≤ Cert.ReferenceIdeal.Read.val_main_v12 (F := Ideal) (m ((c : Thread nD τ).loc main_arg2)) (m ((c : Thread nD τ).loc main_arg5)) (ix1 e) * Cert.ReferenceIdeal.Read.val_main_v19 (F := Ideal) (m ((c : Thread nD τ).loc main_arg1)) (m ((c : Thread nD τ).loc main_arg5)) (ix1 e)) :
    V4 m ρ c main_v27 = resultOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (hF1 m ρ c 3).symm.trans ?_
  refine (region1_array (V3 m ρ) c).trans ?_
  have h6 : muArr (V3 m ρ) c = m ((c : Thread nD τ).loc main_arg6) := V3_arg6 m ρ c
  have h1 : polArr (V3 m ρ) c = Cert.ReferenceIdeal.Read.val_main_v5 (F := Ideal) (m ((c : Thread nD τ).loc main_arg5)) := V3_v1 m ρ c
  have h26 : sumArr (V3 m ρ) c
      = Host.scatterAdd Cert.ReferenceIdeal.scatter_S200000x3_S6400000x1_S6400000x3_1_0_0_1
          (Cert.ReferenceIdeal.Read.val_main_v67 (F := Ideal)) (Cert.ReferenceIdeal.Read.val_main_v68 (F := Ideal) (m ((c : Thread nD τ).loc main_arg1)))
          (contribOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := V3_v26 m ρ c hα
  show nodeField (muArr (V3 m ρ) c) (polArr (V3 m ρ) c) (sumArr (V3 m ρ) c) = _
  rw [h6, h1, h26]
  rfl

end Cert.Dipole

end
-- ==== Proof.lean ====
/-
  The Thole-damped dipole interaction matvec: a program of two kernels against its jnp reference, equal over
  the extended reals where the reference's sixth root is defined.

  Both programs compute, for every edge (src, dst) with distance d and displacement v,
      r = d / a₀,  w = v / a₀,  u = r / (pol[dst] · pol[src])^s,  t = A · u³,  e = exp (-t),
      contribution = (1 - e) / r³ · mu[dst] - 3 · (1 - (1 + t) · e) / r⁵ · (w · mu[dst]) · w,
  sum the contributions by source node and add mu / pol. The reference does everything on the host. The kernel
  program gathers pol[dst], pol[src] and mu[dst] on the host, computes the contributions in a first kernel over 125
  blocks of 51200 edges, sums them by source node on the host, and adds mu / pol in a second kernel.
  The kernel multiplies by a folded 1 / a₀ where the reference divides by a₀: the constant is named the exact
  reciprocal of the reference's a₀ (the `preserves` claim's two conjuncts, one per use). The kernel takes the sixth
  root as exp (log x · s) where the reference takes x ^ s: equal for 0 ≤ x, which the precondition states of every
  edge's product pol[dst] · pol[src] (for a negative product the reference's power is not a number). The kernel's
  (1 / r³) / r², its grouping of A · u³ and its 0 - t agree with the reference's 1 / r⁵, grouping and -t on every
  extended real, so no finiteness is used.
  The frames of the two kernel programs are the generated ones; the reference's is its generated run with the result
  dropped. For the value claim both runs are posted at one closed form of the launch arrays (RefResult.lean's
  `resultOf`): the kernel program's from the frame run with the result array named (RunValue.lean) read back through
  the two regions and the host stretches (KernelValue.lean), the reference's from its generated run and its stages.
-/
import proofs.«425052_j68865505624311_1_alg».proof.Defs
import proofs.«425052_j68865505624311_1_alg».proof.Proof.Gen.Kernel
import proofs.«425052_j68865505624311_1_alg».proof.Proof.Gen.Kernel.Skeleton
import proofs.«425052_j68865505624311_1_alg».proof.Proof.Gen.Kernel.Launch
import proofs.«425052_j68865505624311_1_alg».proof.Proof.Gen.Kernel.Points
import proofs.«425052_j68865505624311_1_alg».proof.Proof.Gen.Kernel.Frame
import proofs.«425052_j68865505624311_1_alg».proof.Proof.Gen.KernelIdeal
import proofs.«425052_j68865505624311_1_alg».proof.Proof.Gen.KernelIdeal.Skeleton
import proofs.«425052_j68865505624311_1_alg».proof.Proof.Gen.KernelIdeal.Launch
import proofs.«425052_j68865505624311_1_alg».proof.Proof.Gen.KernelIdeal.Points
import proofs.«425052_j68865505624311_1_alg».proof.Proof.Gen.KernelIdeal.Frame
import proofs.«425052_j68865505624311_1_alg».proof.Proof.Gen.ReferenceIdeal
import proofs.«425052_j68865505624311_1_alg».proof.Proof.Gen.Pre_finite_inputs
import proofs.«425052_j68865505624311_1_alg».proof.Proof.Gen.ReferenceIdeal.Run
import proofs.«425052_j68865505624311_1_alg».proof.Proof.Gen.ReferenceIdeal.Read
import proofs.«425052_j68865505624311_1_alg».proof.Proof.PreDecode
import proofs.«425052_j68865505624311_1_alg».proof.Proof.RefResult
import proofs.«425052_j68865505624311_1_alg».proof.Proof.KernelValue
import Idealize.ShloMosaic.Adequacy
import Idealize.ShloMosaic.Init

noncomputable section

namespace Cert.Proof

open Idealize.ShloMosaic Idealize.ShloMosaic.ValueIdx Idealize.SL.Sem

/-- The word-level program runs and keeps its arguments: the generated frame. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's folded reciprocal of the Bohr radius is read as the exact reciprocal of the reference's word: the
    certificate's table says so, once for each of the constant's two uses. -/
theorem preserves : Cert.preserves_Kernel_KernelIdeal :=
  ⟨IdealRules.named_const.statement Cert.KernelIdeal.κ "inv_bohr" .f32 0x3FF1E28C#32 ((2097152 / 1109765 : ℝ) : EReal) rfl,
   IdealRules.named_const.statement Cert.KernelIdeal.κ "inv_bohr" .f32 0x3FF1E28C#32 ((2097152 / 1109765 : ℝ) : EReal) rfl⟩

/-- From memories agreeing on the arguments, under the precondition, both programs end with the result array at the
    same closed form of the launch arrays. -/
theorem algebraic : Cert.algebraic_KernelIdeal_ReferenceIdeal := by
  intro m ρ m' ρ' hpre hagree
  have hα : ∀ (c : Dev Cert.KernelIdeal.nD) (e : Fin 6400000),
      0 ≤ Cert.ReferenceIdeal.Read.val_main_v12 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (ix1 e)
        * Cert.ReferenceIdeal.Read.val_main_v19 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (ix1 e) :=
    fun c e => Cert.Dipole.alpha_nonneg _ _ _ _ _ _ _ (hpre c) (ix1 e)
  refine ⟨fun c => Cert.Dipole.resultOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Dipole.kernel_result m ρ c (hα c)), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v73_eq, Cert.Dipole.ref_result]
    obtain ⟨-, e1, e2, e3, e4, e5, e6⟩ := hagree c
    rw [e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
